-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S64x768 : Shape := ⟨2, ![64, 768]⟩
abbrev S131072 : Shape := ⟨1, ![131072]⟩
abbrev S768x1024 : Shape := ⟨2, ![768, 1024]⟩
abbrev S1024 : Shape := ⟨1, ![1024]⟩
abbrev S1024x256 : Shape := ⟨2, ![1024, 256]⟩
abbrev S256 : Shape := ⟨1, ![256]⟩
abbrev S512x256 : Shape := ⟨2, ![512, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S64x768 : S_.BroadcastsInDim S64x768 (![] : Fin 0 → Fin S64x768.rank)
  reducesTo_S64x768_S_d0_1 : S64x768.ReducesTo [0, 1] S_
  bcast_S_S768x1024 : S_.BroadcastsInDim S768x1024 (![] : Fin 0 → Fin S768x1024.rank)
  reducesTo_S768x1024_S_d0_1 : S768x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S131072 : S_.BroadcastsInDim S131072 (![] : Fin 0 → Fin S131072.rank)
  reducesTo_S131072_S_d0 : S131072.ReducesTo [0] S_

variable [Facts]

def fn_part3 {F : FTy → Type} [FloatOps F] (main_arg2 : IVec S131072 32) (main_v48 : IVec S_ 1) (main_v50 : IVec S131072 1) : IVec S_ 1 :=
  let main_c_19 : IVec S_ 1 := constantI S_ 1 1#1
  let main_v51 : IVec S_ 1 := (fun x v => Host.reduce IntOp.andi x v reducesTo_S131072_S_d0 h_S_) main_v50 main_c_19
  let main_v52 : IVec S_ 1 := andi main_v48 main_v51
  let main_c_20 : IVec S_ 32 := constantI S_ 32 64#32
  let main_v53 : IVec S131072 32 := broadcastInDim S131072 ![] bcast_S_S131072 main_c_20
  let main_v54 : IVec S131072 1 := cmpi .slt main_arg2 main_v53
  let main_c_21 : IVec S_ 1 := constantI S_ 1 1#1
  let main_v55 : IVec S_ 1 := (fun x v => Host.reduce IntOp.andi x v reducesTo_S131072_S_d0 h_S_) main_v54 main_c_21
  let main_v56 : IVec S_ 1 := andi main_v52 main_v55
  main_v56

def fn_part2 {F : FTy → Type} [FloatOps F] (main_arg2 : IVec S131072 32) (main_arg8 : FVec F S256 .f32) (main_arg9 : FVec F S256 .f32) (main_arg10 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_c_18 : IVec S_ 32 := constantI S_ 32 4294967232#32
  let main_v49 : IVec S131072 32 := broadcastInDim S131072 ![] bcast_S_S131072 main_c_18
  let main_v50 : IVec S131072 1 := cmpi .sge main_arg2 main_v49
  fn_part3 (F := F) main_arg2 main_v48 main_v50

def fn_part1 {F : FTy → Type} [FloatOps F] (main_arg2 : IVec S131072 32) (main_arg5 : FVec F S1024x256 .f32) (main_arg6 : FVec F S256 .f32) (main_arg7 : FVec F S512x256 .f32) (main_arg8 : FVec F S256 .f32) (main_arg9 : FVec F S256 .f32) (main_arg10 : FVec F S256 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x256 .f32 := Host.absf main_arg5
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg7
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S131072x256 .f32) (main_arg1 : FVec F S64x768 .f32) (main_arg2 : IVec S131072 32) (main_arg3 : FVec F S768x1024 .f32) (main_arg4 : FVec F S1024 .f32) (main_arg5 : FVec F S1024x256 .f32) (main_arg6 : FVec F S256 .f32) (main_arg7 : FVec F S512x256 .f32) (main_arg8 : FVec F S256 .f32) (main_arg9 : FVec F S256 .f32) (main_arg10 : FVec F S256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S768x1024 .f32 := Host.absf main_arg3
  let main_cst_2 : FVec F S_ .f32 := constant S_ .f32 0x7F800000#32
  let main_v10 : FVec F S768x1024 .f32 := broadcastInDim S768x1024 ![] bcast_S_S768x1024 main_cst_2
  let main_v11 : IVec S768x1024 1 := cmpf .olt main_v9 main_v10
  let main_c_3 : IVec S_ 1 := constantI S_ 1 1#1
  let main_v12 : IVec S_ 1 := (fun x v => Host.reduce IntOp.andi x v reducesTo_S768x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg2 main_arg5 main_arg6 main_arg7 main_arg8 main_arg9 main_arg10 main_v13 main_v16
-- ==== Kernel.lean ====
abbrev S131072x256 : Shape := ⟨2, ![131072, 256]⟩
abbrev S64x768 : Shape := ⟨2, ![64, 768]⟩
abbrev S131072 : Shape := ⟨1, ![131072]⟩
abbrev S768x1024 : Shape := ⟨2, ![768, 1024]⟩
abbrev S1024 : Shape := ⟨1, ![1024]⟩
abbrev S1024x256 : Shape := ⟨2, ![1024, 256]⟩
abbrev S256 : Shape := ⟨1, ![256]⟩
abbrev S512x256 : Shape := ⟨2, ![512, 256]⟩
abbrev S64x1024 : Shape := ⟨2, ![64, 1024]⟩
abbrev S1x1024 : Shape := ⟨2, ![1, 1024]⟩
abbrev S_ : Shape := ⟨0, ![]⟩
abbrev S64x256 : Shape := ⟨2, ![64, 256]⟩
abbrev S1x256 : Shape := ⟨2, ![1, 256]⟩
abbrev S256x256 : Shape := ⟨2, ![256, 256]⟩
abbrev S64x512 : Shape := ⟨2, ![64, 512]⟩
abbrev S128x512 : Shape := ⟨2, ![128, 512]⟩
abbrev S131072x1 : Shape := ⟨2, ![131072, 1]⟩
abbrev S4096x256 : Shape := ⟨2, ![4096, 256]⟩
abbrev S4096x1 : Shape := ⟨2, ![4096, 1]⟩
abbrev S4096x128 : Shape := ⟨2, ![4096, 128]⟩
abbrev S4096x512 : Shape := ⟨2, ![4096, 512]⟩
abbrev S4096 : Shape := ⟨1, ![4096]⟩

abbrev nBuf : Space → Nat
  | .hbm => 43
  | .vmem => 10
  | .smem => 0
  | _ => 0

abbrev bufTy : (tb : Table) → Fin (tcTables nBuf tb) → BufTy
  | .hbm, ⟨0, _⟩ => ⟨S131072x256, .f32⟩
  | .hbm, ⟨1, _⟩ => ⟨S64x768, .f32⟩
  | .hbm, ⟨2, _⟩ => ⟨S131072, .i32⟩
  | .hbm, ⟨3, _⟩ => ⟨S768x1024, .f32⟩
  | .hbm, ⟨4, _⟩ => ⟨S1024, .f32⟩
  | .hbm, ⟨5, _⟩ => ⟨S1024x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S64x1024, .f32⟩
  | .hbm, ⟨12, _⟩ => ⟨S1x1024, .f32⟩
  | .hbm, ⟨13, _⟩ => ⟨S64x1024, .f32⟩
  | .hbm, ⟨14, _⟩ => ⟨S64x1024, .f32⟩
  | .hbm, ⟨15, _⟩ => ⟨S_, .f32⟩
  | .hbm, ⟨16, _⟩ => ⟨S64x1024, .f32⟩
  | .hbm, ⟨17, _⟩ => ⟨S64x1024, .f32⟩
  | .hbm, ⟨18, _⟩ => ⟨S64x256, .f32⟩
  | .hbm, ⟨19, _⟩ => ⟨S1x256, .f32⟩
  | .hbm, ⟨20, _⟩ => ⟨S64x256, .f32⟩
  | .hbm, ⟨21, _⟩ => ⟨S64x256, .f32⟩
  | .hbm, ⟨22, _⟩ => ⟨S256x256, .f32⟩
  | .hbm, ⟨23, _⟩ => ⟨S256x256, .f32⟩
  | .hbm, ⟨24, _⟩ => ⟨S64x256, .f32⟩
  | .hbm, ⟨25, _⟩ => ⟨S1x256, .f32⟩
  | .hbm, ⟨26, _⟩ => ⟨S64x256, .f32⟩
  | .hbm, ⟨27, _⟩ => ⟨S64x256, .f32⟩
  | .hbm, ⟨28, _⟩ => ⟨S64x256, .bf16⟩
  | .hbm, ⟨29, _⟩ => ⟨S64x256, .f32⟩
  | .hbm, ⟨30, _⟩ => ⟨S64x256, .f32⟩
  | .hbm, ⟨31, _⟩ => ⟨S64x256, .bf16⟩
  | .hbm, ⟨32, _⟩ => ⟨S64x256, .bf16⟩
  | .hbm, ⟨33, _⟩ => ⟨S256x256, .bf16⟩
  | .hbm, ⟨34, _⟩ => ⟨S_, .bf16⟩
  | .hbm, ⟨35, _⟩ => ⟨S64x256, .bf16⟩
  | .hbm, ⟨36, _⟩ => ⟨S64x512, .bf16⟩
  | .hbm, ⟨37, _⟩ => ⟨S64x512, .bf16⟩
  | .hbm, ⟨38, _⟩ => ⟨S128x512, .bf16⟩
  | .hbm, ⟨39, _⟩ => ⟨S131072x1, .i32⟩
  | .hbm, ⟨40, _⟩ => ⟨S1x256, .f32⟩
  | .hbm, ⟨41, _⟩ => ⟨S1x256, .f32⟩
  | .hbm, ⟨42, _⟩ => ⟨S131072x256, .f32⟩
  | .local _ .vmem, ⟨0, _⟩ => ⟨S4096x256, .f32⟩
  | .local _ .vmem, ⟨1, _⟩ => ⟨S4096x256, .f32⟩
  | .local _ .vmem, ⟨2, _⟩ => ⟨S4096x1, .i32⟩
  | .local _ .vmem, ⟨3, _⟩ => ⟨S4096x1, .i32⟩
  | .local _ .vmem, ⟨4, _⟩ => ⟨S128x512, .bf16⟩
  | .local _ .vmem, ⟨5, _⟩ => ⟨S256x256, .bf16⟩
  | .local _ .vmem, ⟨6, _⟩ => ⟨S1x256, .f32⟩
  | .local _ .vmem, ⟨7, _⟩ => ⟨S1x256, .f32⟩
  | .local _ .vmem, ⟨8, _⟩ => ⟨S4096x256, .f32⟩
  | .local _ .vmem, ⟨9, _⟩ => ⟨S4096x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S_S64x1024 : S_.BroadcastsInDim S64x1024 (![] : Fin 0 → Fin S64x1024.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  slices_S512x256_S256x256_0_0 : S512x256.Slices ![0, 0] S256x256
  slices_S512x256_S256x256_256_0 : S512x256.Slices ![256, 0] S256x256
  bitsLt_bf16_f32 : FTy.bits .bf16 < FTy.bits .f32
  bcast_S_S64x256 : S_.BroadcastsInDim S64x256 (![] : Fin 0 → Fin S64x256.rank)
  concatenates_S64x256_S64x256_S64x512_d1 : Shape.Concatenates [S64x256, S64x256] S64x512 1
  concatenates_S64x512_S64x512_S128x512_d0 : Shape.Concatenates [S64x512, S64x512] S128x512 0
  shapeCasts_S131072_S131072x1 : S131072.ShapeCasts S131072x1
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x128_d1_w32 : S4096x128.Iotas .tc 32 [1]
  broadcasts_S4096x1_S4096x128 : S4096x1.Broadcasts S4096x128
  natLt_1_32 : 1 < 32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  slices_S4096x512_o0_0_S4096x256 : S4096x512.Slices ![0, 0] S4096x256
  slices_S4096x512_o0_256_S4096x256 : S4096x512.Slices ![0, 256] S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S4096x256_S4096 : S4096x256.Reduces [1] S4096
  shapeCasts_S4096_S4096x1 : S4096.ShapeCasts S4096x1
  broadcasts_S4096x1_S4096x256 : S4096x1.Broadcasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  dot_S64x768_S768x1024_S64x1024_1_0_0_1_n_n_wf : DotDims.WF S64x768 S768x1024 S64x1024 [1] [0] [0] [1] [] []
  dot_S64x1024_S1024x256_S64x256_1_0_0_1_n_n_wf : DotDims.WF S64x1024 S1024x256 S64x256 [1] [0] [0] [1] [] []
  dot_S64x256_S256x256_S64x256_1_0_0_1_n_n_wf : DotDims.WF S64x256 S256x256 S64x256 [1] [0] [0] [1] [] []
  dot_S4096x128_S128x512_S4096x512_1_0_0_1_n_n_wf : DotDims.WF S4096x128 S128x512 S4096x512 [1] [0] [0] [1] [] []
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S131072x1.size a
  hwx0_1 : ∀ i : grid0.Coords, EltTy.bits .i32 = 32 ∨ (Rect.block (s := S131072x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .bf16 = 32 ∨ (Rect.block (s := S128x512) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x256.size a ≤ S131072x256.size a
  hwx0_6 : ∀ i : grid0.Coords, EltTy.bits .f32 = 32 ∨ (Rect.block (s := S131072x256) S4096x256.size (cc0_transform_6 i) (hinb0_6 i)).WholeWords (EltTy.packing .f32)

variable [Facts₀]

def dot_S64x768_S768x1024_S64x1024_1_0_0_1_n_n : DotDims S64x768 S768x1024 S64x1024 where
  lhsContracting := [1]
  rhsContracting := [0]
  lhsNonContracting := [0]
  rhsNonContracting := [1]
  lhsBatch := []
  rhsBatch := []
  wf := dot_S64x768_S768x1024_S64x1024_1_0_0_1_n_n_wf
def dot_S64x1024_S1024x256_S64x256_1_0_0_1_n_n : DotDims S64x1024 S1024x256 S64x256 where
  lhsContracting := [1]
  rhsContracting := [0]
  lhsNonContracting := [0]
  rhsNonContracting := [1]
  lhsBatch := []
  rhsBatch := []
  wf := dot_S64x1024_S1024x256_S64x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S4096x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x256 : Shape := ⟨2, ![131072, 256]⟩
abbrev S64x768 : Shape := ⟨2, ![64, 768]⟩
abbrev S131072 : Shape := ⟨1, ![131072]⟩
abbrev S768x1024 : Shape := ⟨2, ![768, 1024]⟩
abbrev S1024 : Shape := ⟨1, ![1024]⟩
abbrev S1024x256 : Shape := ⟨2, ![1024, 256]⟩
abbrev S256 : Shape := ⟨1, ![256]⟩
abbrev S512x256 : Shape := ⟨2, ![512, 256]⟩
abbrev S64x1024 : Shape := ⟨2, ![64, 1024]⟩
abbrev S1x1024 : Shape := ⟨2, ![1, 1024]⟩
abbrev S_ : Shape := ⟨0, ![]⟩
abbrev S64x256 : Shape := ⟨2, ![64, 256]⟩
abbrev S1x256 : Shape := ⟨2, ![1, 256]⟩
abbrev S131072x1 : Shape := ⟨2, ![131072, 1]⟩
abbrev S256x256 : Shape := ⟨2, ![256, 256]⟩

abbrev nBuf : Space → Nat
  | .hbm => 78
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S64x768, .f32⟩
  | .hbm, ⟨2, _⟩ => ⟨S131072, .i32⟩
  | .hbm, ⟨3, _⟩ => ⟨S768x1024, .f32⟩
  | .hbm, ⟨4, _⟩ => ⟨S1024, .f32⟩
  | .hbm, ⟨5, _⟩ => ⟨S1024x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S64x1024, .f32⟩
  | .hbm, ⟨12, _⟩ => ⟨S1x1024, .f32⟩
  | .hbm, ⟨13, _⟩ => ⟨S64x1024, .f32⟩
  | .hbm, ⟨14, _⟩ => ⟨S64x1024, .f32⟩
  | .hbm, ⟨15, _⟩ => ⟨S_, .f32⟩
  | .hbm, ⟨16, _⟩ => ⟨S64x1024, .f32⟩
  | .hbm, ⟨17, _⟩ => ⟨S64x1024, .f32⟩
  | .hbm, ⟨18, _⟩ => ⟨S64x256, .f32⟩
  | .hbm, ⟨19, _⟩ => ⟨S1x256, .f32⟩
  | .hbm, ⟨20, _⟩ => ⟨S64x256, .f32⟩
  | .hbm, ⟨21, _⟩ => ⟨S64x256, .f32⟩
  | .hbm, ⟨22, _⟩ => ⟨S_, .i32⟩
  | .hbm, ⟨23, _⟩ => ⟨S131072, .i32⟩
  | .hbm, ⟨24, _⟩ => ⟨S131072, .i1⟩
  | .hbm, ⟨25, _⟩ => ⟨S_, .i32⟩
  | .hbm, ⟨26, _⟩ => ⟨S131072, .i32⟩
  | .hbm, ⟨27, _⟩ => ⟨S131072, .i32⟩
  | .hbm, ⟨28, _⟩ => ⟨S131072, .i32⟩
  | .hbm, ⟨29, _⟩ => ⟨S131072x1, .i32⟩
  | .hbm, ⟨30, _⟩ => ⟨S131072x256, .f32⟩
  | .hbm, ⟨31, _⟩ => ⟨S256x256, .f32⟩
  | .hbm, ⟨32, _⟩ => ⟨S131072x256, .f32⟩
  | .hbm, ⟨33, _⟩ => ⟨S256x256, .f32⟩
  | .hbm, ⟨34, _⟩ => ⟨S131072x256, .f32⟩
  | .hbm, ⟨35, _⟩ => ⟨S131072x256, .f32⟩
  | .hbm, ⟨36, _⟩ => ⟨S1x256, .f32⟩
  | .hbm, ⟨37, _⟩ => ⟨S131072x256, .f32⟩
  | .hbm, ⟨38, _⟩ => ⟨S131072x256, .f32⟩
  | .hbm, ⟨39, _⟩ => ⟨S131072x256, .f32⟩
  | .hbm, ⟨40, _⟩ => ⟨S131072x256, .f32⟩
  | .hbm, ⟨41, _⟩ => ⟨S_, .f32⟩
  | .hbm, ⟨42, _⟩ => ⟨S131072x256, .f32⟩
  | .hbm, ⟨43, _⟩ => ⟨S131072x256, .f32⟩
  | .hbm, ⟨44, _⟩ => ⟨S_, .f32⟩
  | .hbm, ⟨45, _⟩ => ⟨S131072x256, .f32⟩
  | .hbm, ⟨46, _⟩ => ⟨S131072x256, .f32⟩
  | .hbm, ⟨47, _⟩ => ⟨S131072x256, .f32⟩
  | .hbm, ⟨48, _⟩ => ⟨S131072x256, .f32⟩
  | .hbm, ⟨49, _⟩ => ⟨S_, .f32⟩
  | .hbm, ⟨50, _⟩ => ⟨S131072, .f32⟩
  | .hbm, ⟨51, _⟩ => ⟨S131072x1, .f32⟩
  | .hbm, ⟨52, _⟩ => ⟨S_, .f32⟩
  | .hbm, ⟨53, _⟩ => ⟨S131072x1, .f32⟩
  | .hbm, ⟨54, _⟩ => ⟨S131072x1, .f32⟩
  | .hbm, ⟨55, _⟩ => ⟨S131072x256, .f32⟩
  | .hbm, ⟨56, _⟩ => ⟨S131072x256, .f32⟩
  | .hbm, ⟨57, _⟩ => ⟨S131072x256, .f32⟩
  | .hbm, ⟨58, _⟩ => ⟨S_, .f32⟩
  | .hbm, ⟨59, _⟩ => ⟨S131072, .f32⟩
  | .hbm, ⟨60, _⟩ => ⟨S131072x1, .f32⟩
  | .hbm, ⟨61, _⟩ => ⟨S_, .f32⟩
  | .hbm, ⟨62, _⟩ => ⟨S131072x1, .f32⟩
  | .hbm, ⟨63, _⟩ => ⟨S131072x1, .f32⟩
  | .hbm, ⟨64, _⟩ => ⟨S131072x256, .f32⟩
  | .hbm, ⟨65, _⟩ => ⟨S131072x256, .f32⟩
  | .hbm, ⟨66, _⟩ => ⟨S_, .f32⟩
  | .hbm, ⟨67, _⟩ => ⟨S131072x1, .f32⟩
  | .hbm, ⟨68, _⟩ => ⟨S131072x1, .f32⟩
  | .hbm, ⟨69, _⟩ => ⟨S131072x1, .f32⟩
  | .hbm, ⟨70, _⟩ => ⟨S131072x256, .f32⟩
  | .hbm, ⟨71, _⟩ => ⟨S131072x256, .f32⟩
  | .hbm, ⟨72, _⟩ => ⟨S1x256, .f32⟩
  | .hbm, ⟨73, _⟩ => ⟨S131072x256, .f32⟩
  | .hbm, ⟨74, _⟩ => ⟨S131072x256, .f32⟩
  | .hbm, ⟨75, _⟩ => ⟨S1x256, .f32⟩
  | .hbm, ⟨76, _⟩ => ⟨S131072x256, .f32⟩
  | .hbm, ⟨77, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_v26 : Ref sig .tc := ⟨.hbm, 42, rfl⟩
abbrev main_v27 : Ref sig .tc := ⟨.hbm, 43, rfl⟩
abbrev main_cst_1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_4 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S_S64x1024 : S_.BroadcastsInDim S64x1024 (![] : Fin 0 → Fin S64x1024.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S131072 : S_.BroadcastsInDim S131072 (![] : Fin 0 → Fin S131072.rank)
  bcast_S131072_S131072x1_0 : S131072.BroadcastsInDim S131072x1 (![0] : Fin 1 → Fin S131072x1.rank)
  slices_S512x256_S256x256_0_0 : S512x256.Slices ![0, 0] S256x256
  slices_S512x256_S256x256_256_0 : S512x256.Slices ![256, 0] S256x256
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  reducesTo_S131072x256_S131072_d1 : S131072x256.ReducesTo [1] S131072
  h_S_ : 0 < S_.numel
  bcast_S_S131072x1 : S_.BroadcastsInDim S131072x1 (![] : Fin 0 → Fin S131072x1.rank)
  bcast_S131072x1_S131072x256_0_1 : S131072x1.BroadcastsInDim S131072x256 (![0, 1] : Fin 2 → Fin S131072x256.rank)
  dot_S64x768_S768x1024_S64x1024_1_0_0_1_n_n_wf : DotDims.WF S64x768 S768x1024 S64x1024 [1] [0] [0] [1] [] []
  dot_S64x1024_S1024x256_S64x256_1_0_0_1_n_n_wf : DotDims.WF S64x1024 S1024x256 S64x256 [1] [0] [0] [1] [] []
  gather_S64x256_S131072x1_S131072x256_1_0_n_n_0_1_1256_wf : GatherDims.WF S64x256 S131072x1 S131072x256 [1] [0] [] [0] [] 1 ![1, 256]
  dot_S131072x256_S256x256_S131072x256_1_0_0_1_n_n_wf : DotDims.WF S131072x256 S256x256 S131072x256 [1] [0] [0] [1] [] []

variable [Facts₀]

def dot_S64x768_S768x1024_S64x1024_1_0_0_1_n_n : DotDims S64x768 S768x1024 S64x1024 where
  lhsContracting := [1]
  rhsContracting := [0]
  lhsNonContracting := [0]
  rhsNonContracting := [1]
  lhsBatch := []
  rhsBatch := []
  wf := dot_S64x768_S768x1024_S64x1024_1_0_0_1_n_n_wf
def dot_S64x1024_S1024x256_S64x256_1_0_0_1_n_n : DotDims S64x1024 S1024x256 S64x256 where
  lhsContracting := [1]
  rhsContracting := [0]
  lhsNonContracting := [0]
  rhsNonContracting := [1]
  lhsBatch := []
  rhsBatch := []
  wf := dot_S64x1024_S1024x256_S64x256_1_0_0_1_n_n_wf
def gather_S64x256_S131072x1_S131072x256_1_0_n_n_0_1_1256 : GatherDims S64x256 S131072x1 S131072x256 where
  offsetDims := [1]
  collapsedSliceDims := [0]
  operandBatchingDims := []
  startIndicesBatchingDims := []
  startIndexMap := [0]
  indexVectorDim := 1
  sliceSizes := ![1, 256]
  wf := gather_S64x256_S131072x1_S131072x256_1_0_n_n_0_1_1256_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf

class Facts : Prop extends Facts₀ where

variable [Facts]
-- ==== Proof.Spec.lean ====
/-
  The function both programs compute, index by index over the extended reals.

  A text table t = relu(text · W1 + b1) · W2 + b2 has one row per segment (64 rows of 256). Node n takes row
  s(n) of it, where s(n) is the node's segment word read as jnp reads an index: a negative word has 64 added, and
  the result is clamped into [0, 63]. The node's features are then gated,
      e(n, j) = node(n, j) + σ((Σₖ node(n, k) · Wg(k, j) + Σₖ t(s, k) · Wg(256 + k, j)) + bg(j)) · t(s, j),
  with σ(x) = 1 / (1 + exp(−x)), and each row is normalised: with μ the row's mean and v the mean of its squared
  deviations, the result is (e − μ) · (v + ε)^(−1/2) · γ(j) + β(j). The divisor 256 and ε are kept as the words both
  programs print.

  The kernel does not gather: it multiplies a 0/1 matrix (`hot`: a one where the column equals the segment word or
  the word plus 64) with a 128-row table whose upper 64 rows are [t | t · Wg₂ + bg] and whose lower 64 rows are
  [t − t | 0] (`sel`).
-/
import Idealize.ShloMosaic.PureOps.Ideal
import Idealize.ShloMosaic.Lib.ValueIdx

noncomputable section

namespace Cert.Fusion

open Idealize.ShloMosaic Idealize.ShloMosaic.ValueIdx
open scoped BigOperators

/-- An a × b matrix of extended reals. -/
abbrev Mat (a b : Nat) : Type := (⟨2, ![a, b]⟩ : Shape).Idx → EReal
/-- A vector of a extended reals. -/
abbrev Vec1 (a : Nat) : Type := (⟨1, ![a]⟩ : Shape).Idx → EReal
/-- The segment words, one per node. -/
abbrev Seg : Type := (⟨1, ![131072]⟩ : Shape).Idx → BitVec 32

/-- Every entry is a real number. -/
def AllReal {ι : Type} (x : ι → EReal) : Prop := ∀ i, ∃ r : ℝ, x i = (r : EReal)

/-- Row k of the upper half of the 512-row gate matrix. -/
abbrev hiRow (k : Fin 256) : Fin 512 := ⟨k.val, by omega⟩
/-- Row k of its lower half. -/
abbrev loRow (k : Fin 256) : Fin 512 := ⟨256 + k.val, by omega⟩

/-- The hidden layer: relu(text · W1 + b1) at (i, k). -/
def hidden (text : Mat 64 768) (W1 : Mat 768 1024) (b1 : Vec1 1024) (i : Fin 64) (k : Fin 1024) : EReal :=
  max ((∑ l : Fin 768, text (ix2 i l) * W1 (ix2 l k)) + b1 (ix1 k)) 0

/-- The text table t = hidden · W2 + b2 at (i, j). -/
def textProj (text : Mat 64 768) (W1 : Mat 768 1024) (b1 : Vec1 1024) (W2 : Mat 1024 256) (b2 : Vec1 256)
    (i : Fin 64) (j : Fin 256) : EReal :=
  (∑ k : Fin 1024, hidden text W1 b1 i k * W2 (ix2 k j)) + b2 (ix1 j)

/-- The part of the gate's argument that depends on the segment only: t · Wg₂ + bg at (i, j). -/
def gatePart (t : Fin 64 → Fin 256 → EReal) (Wg : Mat 512 256) (bg : Vec1 256) (i : Fin 64) (j : Fin 256) : EReal :=
  (∑ k : Fin 256, t i k * Wg (ix2 (loRow k) j)) + bg (ix1 j)

/-- A segment word as a row of the 64-row table: 64 added to a negative word, then clamped into [0, 63]. -/
def wrap (w : BitVec 32) : Fin 64 :=
  ⟨min (Scalar.select (IntOp.cmpi .slt w 0#32) (IntOp.addi w 64#32) w).toInt.toNat 63, by omega⟩

/-- The kernel's 0/1 weight of table row r for a node whose segment word is w. -/
def hot (w : BitVec 32) (r : Fin 128) : EReal :=
  (((BitVec.setWidth 32 (IntOp.ori (IntOp.cmpi .eq w (BitVec.ofNat 32 r.val))
      (IntOp.cmpi .eq (IntOp.addi w 64#32) (BitVec.ofNat 32 r.val)))).toInt : ℝ) : EReal)

/-- Column c of the 128-row table weighted by the 0/1 row of word w. -/
def sel (w : BitVec 32) (tab : Mat 128 512) (c : Fin 512) : EReal := ∑ r : Fin 128, hot w r * tab (ix2 r c)

/-- The divisor 256 as printed. -/
def c256 : EReal := Ideal.ofBits .f32 0x43800000#32
/-- ε as printed. -/
def cEps : EReal := Ideal.ofBits .f32 0x3A83126F#32

/-- A row's mean. -/
def rowMean (e : Fin 256 → EReal) : EReal := Ideal.div (∑ k : Fin 256, e k) c256

/-- A row normalised: (e − μ) · (v + ε)^(−1/2) at q. -/
def normed (e : Fin 256 → EReal) (q : Fin 256) : EReal :=
  (e q - rowMean e) * Ideal.rsqrt (rowMean (fun k => (e k - rowMean e) * (e k - rowMean e)) + cEps)

/-- The gated features of node n whose table row is s, at j. -/
def enhanced (node : Mat 131072 256) (t : Fin 64 → Fin 256 → EReal) (Wg : Mat 512 256) (bg : Vec1 256)
    (s : Fin 64) (n : Fin 131072) (j : Fin 256) : EReal :=
  node (ix2 n j) + Ideal.logistic (((∑ k : Fin 256, node (ix2 n k) * Wg (ix2 (hiRow k) j))
      + (∑ k : Fin 256, t s k * Wg (ix2 (loRow k) j))) + bg (ix1 j)) * t s j

/-- The result array. -/
def fused (node : Mat 131072 256) (text : Mat 64 768) (seg : Seg) (W1 : Mat 768 1024) (b1 : Vec1 1024)
    (W2 : Mat 1024 256) (b2 : Vec1 256) (Wg : Mat 512 256) (bg gamma beta : Vec1 256) : Mat 131072 256 := fun i =>
  normed (enhanced node (textProj text W1 b1 W2 b2) Wg bg (wrap (seg (ix1 (i 0)))) (i 0)) (i 1) * gamma (ix1 (i 1))
    + beta (ix1 (i 1))

end Cert.Fusion

end
-- ==== Proof.HostTable.lean ====
/-
  What the kernel's host operations leave in the arrays its region reads: the 128-row table (upper rows [t | t · Wg₂ + bg],
  lower rows zero when the text branch's inputs are real numbers), the upper half of the gate matrix, and the segment
  words, scale and shift re-laid as columns and rows.
-/
import proofs.«429601_j48189533061148_3_alg».proof.Proof.Gen.KernelIdeal.Frame
import proofs.«429601_j48189533061148_3_alg».proof.Proof.Spec
import Idealize.ShloMosaic.Lib.Pipeline.Value
import Idealize.ShloMosaic.PureOps.Ideal.Laws

noncomputable section

namespace Cert.Fusion

open Idealize.ShloMosaic Idealize.ShloMosaic.TcCoe Idealize.ShloMosaic.ValueIdx Idealize.SL.Sem
open Cert.KernelIdeal Cert.KernelIdeal.Gen
open scoped BigOperators

variable (m : (ℓ : Loc nD τ sig) → Buf (Elt Ideal) ℓ)

/-- The kernel's argument arrays on core c. -/
abbrev A0 (c : Dev nD) : Mat 131072 256 := m ((c : Thread nD τ).loc main_arg0)
abbrev A1 (c : Dev nD) : Mat 64 768 := m ((c : Thread nD τ).loc main_arg1)
abbrev A2 (c : Dev nD) : Seg := m ((c : Thread nD τ).loc main_arg2)
abbrev A3 (c : Dev nD) : Mat 768 1024 := m ((c : Thread nD τ).loc main_arg3)
abbrev A4 (c : Dev nD) : Vec1 1024 := m ((c : Thread nD τ).loc main_arg4)
abbrev A5 (c : Dev nD) : Mat 1024 256 := m ((c : Thread nD τ).loc main_arg5)
abbrev A6 (c : Dev nD) : Vec1 256 := m ((c : Thread nD τ).loc main_arg6)
abbrev A7 (c : Dev nD) : Mat 512 256 := m ((c : Thread nD τ).loc main_arg7)
abbrev A8 (c : Dev nD) : Vec1 256 := m ((c : Thread nD τ).loc main_arg8)
abbrev A9 (c : Dev nD) : Vec1 256 := m ((c : Thread nD τ).loc main_arg9)
abbrev A10 (c : Dev nD) : Vec1 256 := m ((c : Thread nD τ).loc main_arg10)

/-- A row of the table's upper half. -/
abbrev upRow (r : Fin 64) : Fin 128 := ⟨r.val, by omega⟩

/-- The arrays the region's windows read, as launched, at their literal types: the table, the gate matrix's upper
    half, the segment words as a column, the scale and the shift as rows. -/
abbrev tabV (c : Dev nD) : Mat 128 512 := V m c main_v24
abbrev wg1V (c : Dev nD) : Mat 256 256 := V m c main_v20
abbrev segV (c : Dev nD) : (⟨2, ![131072, 1]⟩ : Shape).Idx → BitVec 32 := V m c main_v25
abbrev gammaV (c : Dev nD) : Mat 1 256 := V m c main_v26
abbrev betaV (c : Dev nD) : Mat 1 256 := V m c main_v27

namespace HostTable

/-! ## The host operations in stretches

The host line is folded in stretches: the hidden layer (the first two stretches), then the last stretch in three runs
— the text table t, the gate part, and the changes of format, the difference t − t, the zero block and the two
concatenations. Each run is read over an arbitrary starting contents, so that no run's term carries an earlier one's. -/

/-- The fold of a line of host operations over two stretches is the second stretch's fold over the first's. -/
theorem after_split (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- The hidden layer as the host operations compose it: relu(text · W1 + b1). -/
def hidV (x1 : FVec Ideal S64x768 .f32) (x3 : FVec Ideal S768x1024 .f32) (x4 : FVec Ideal S1024 .f32) :
    FVec Ideal S64x1024 .f32 :=
  maximumf
    (addf (Host.dotGeneral (F := Ideal) dot_S64x768_S768x1024_S64x1024_1_0_0_1_n_n none x1 x3)
      (broadcastInDim S64x1024 ![0, 1] bcast_S1x1024_S64x1024_0_1 (broadcastInDim S1x1024 ![1] bcast_S1024_S1x1024_1 x4)))
    (broadcastInDim S64x1024 ![] bcast_S_S64x1024 (constant (F := Ideal) S_ .f32 0x00000000#32))

/-- The text table as the host operations compose it: h · W2 + b2. -/
def tV (h : FVec Ideal S64x1024 .f32) (x5 : FVec Ideal S1024x256 .f32) (x6 : FVec Ideal S256 .f32) :
    FVec Ideal S64x256 .f32 :=
  addf (Host.dotGeneral (F := Ideal) dot_S64x1024_S1024x256_S64x256_1_0_0_1_n_n none h x5)
    (broadcastInDim S64x256 ![0, 1] bcast_S1x256_S64x256_0_1 (broadcastInDim S1x256 ![1] bcast_S256_S1x256_1 x6))

/-- The gate's segment part as the host operations compose it: t · (lower half of Wg) + bg. -/
def gV (t : FVec Ideal S64x256 .f32) (x7 : FVec Ideal S512x256 .f32) (x8 : FVec Ideal S256 .f32) :
    FVec Ideal S64x256 .f32 :=
  addf (Host.dotGeneral (F := Ideal) dot_S64x256_S256x256_S64x256_1_0_0_1_n_n none t
      (extractStridedSlice S256x256 ![256, 0] x7 slices_S512x256_S256x256_256_0))
    (broadcastInDim S64x256 ![0, 1] bcast_S1x256_S64x256_0_1 (broadcastInDim S1x256 ![1] bcast_S256_S1x256_1 x8))

/-- The 128-row table as the host operations compose it from t and the gate part g:
    [[t, g], [t − t, 0]], every entry passed through the changes of format. -/
def tabT (t g : FVec Ideal S64x256 .f32) : FVec Ideal S128x512 .bf16 :=
  concatenate S128x512 0
    [⟨S64x512, concatenate S64x512 1
        [⟨S64x256, truncf .bf16 t bitsLt_bf16_f32⟩, ⟨S64x256, truncf .bf16 g bitsLt_bf16_f32⟩]
        concatenates_S64x256_S64x256_S64x512_d1⟩,
     ⟨S64x512, concatenate S64x512 1
        [⟨S64x256, truncf .bf16 (subf t (extf .f32 (truncf .bf16 t bitsLt_bf16_f32) bitsLt_bf16_f32)) bitsLt_bf16_f32⟩,
         ⟨S64x256, broadcastInDim S64x256 ![] bcast_S_S64x256 (constant (F := Ideal) S_ .bf16 0x0000#16)⟩]
        concatenates_S64x256_S64x256_S64x512_d1⟩]
    concatenates_S64x512_S64x512_S128x512_d0

/-- The first two stretches leave the hidden layer in its buffer … -/
theorem stage1_hid (W : Valuation τ sig (Elt Ideal)) :
    (StableHlo.after hostOps0_1 (StableHlo.after hostOps0 W) (Proc.devRef .tc main_v4) : FVec Ideal S64x1024 .f32)
      = hidV (W (Proc.devRef .tc main_arg1)) (W (Proc.devRef .tc main_arg3)) (W (Proc.devRef .tc main_arg4)) := by
  simp only [Gen.hostOps0, Gen.hostOps0_1]
  after_results
  rfl

/-- … and leave the later operands as launched. -/
theorem stage1_arg5 (W : Valuation τ sig (Elt Ideal)) :
    StableHlo.after hostOps0_1 (StableHlo.after hostOps0 W) (Proc.devRef .tc main_arg5) = W (Proc.devRef .tc main_arg5) := by
  simp only [Gen.hostOps0, Gen.hostOps0_1]
  after_results
theorem stage1_arg6 (W : Valuation τ sig (Elt Ideal)) :
    StableHlo.after hostOps0_1 (StableHlo.after hostOps0 W) (Proc.devRef .tc main_arg6) = W (Proc.devRef .tc main_arg6) := by
  simp only [Gen.hostOps0, Gen.hostOps0_1]
  after_results
theorem stage1_arg7 (W : Valuation τ sig (Elt Ideal)) :
    StableHlo.after hostOps0_1 (StableHlo.after hostOps0 W) (Proc.devRef .tc main_arg7) = W (Proc.devRef .tc main_arg7) := by
  simp only [Gen.hostOps0, Gen.hostOps0_1]
  after_results
theorem stage1_arg8 (W : Valuation τ sig (Elt Ideal)) :
    StableHlo.after hostOps0_1 (StableHlo.after hostOps0 W) (Proc.devRef .tc main_arg8) = W (Proc.devRef .tc main_arg8) := by
  simp only [Gen.hostOps0, Gen.hostOps0_1]
  after_results

/-- The last stretch in three runs: the four operations that finish t, the six that make the gate part, and the rest. -/
abbrev opsT : List (HloOp τ sig (Elt Ideal)) := (hostOps0_2 (F := Ideal)).take 4
abbrev opsG : List (HloOp τ sig (Elt Ideal)) := ((hostOps0_2 (F := Ideal)).drop 4).take 6
abbrev opsC : List (HloOp τ sig (Elt Ideal)) := ((hostOps0_2 (F := Ideal)).drop 4).drop 6

theorem ops_split : (hostOps0_2 (F := Ideal)) = opsT ++ (opsG ++ opsC) := by
  show _ = List.take 4 _ ++ (List.take 6 (List.drop 4 _) ++ List.drop 6 (List.drop 4 _))
  rw [List.take_append_drop, List.take_append_drop]

theorem runT_t (W : Valuation τ sig (Elt Ideal)) :
    (StableHlo.after opsT W (Proc.devRef .tc main_v8) : FVec Ideal S64x256 .f32)
      = tV (W (Proc.devRef .tc main_v4)) (W (Proc.devRef .tc main_arg5)) (W (Proc.devRef .tc main_arg6)) := by
  simp only [opsT, Gen.hostOps0_2, List.take_succ_cons, List.take_zero]
  after_results
  rfl
theorem runT_arg7 (W : Valuation τ sig (Elt Ideal)) :
    StableHlo.after opsT W (Proc.devRef .tc main_arg7) = W (Proc.devRef .tc main_arg7) := by
  simp only [opsT, Gen.hostOps0_2, List.take_succ_cons, List.take_zero]
  after_results
theorem runT_arg8 (W : Valuation τ sig (Elt Ideal)) :
    StableHlo.after opsT W (Proc.devRef .tc main_arg8) = W (Proc.devRef .tc main_arg8) := by
  simp only [opsT, Gen.hostOps0_2, List.take_succ_cons, List.take_zero]
  after_results

theorem runG_g (W : Valuation τ sig (Elt Ideal)) :
    (StableHlo.after opsG W (Proc.devRef .tc main_v14) : FVec Ideal S64x256 .f32)
      = gV (W (Proc.devRef .tc main_v8)) (W (Proc.devRef .tc main_arg7)) (W (Proc.devRef .tc main_arg8)) := by
  simp only [opsG, Gen.hostOps0_2, List.take_succ_cons, List.take_zero, List.drop_succ_cons, List.drop_zero]
  after_results
  rfl
theorem runG_t (W : Valuation τ sig (Elt Ideal)) :
    StableHlo.after opsG W (Proc.devRef .tc main_v8) = W (Proc.devRef .tc main_v8) := by
  simp only [opsG, Gen.hostOps0_2, List.take_succ_cons, List.take_zero, List.drop_succ_cons, List.drop_zero]
  after_results

theorem runC_tab (W : Valuation τ sig (Elt Ideal)) :
    (StableHlo.after opsC W (Proc.devRef .tc main_v24) : FVec Ideal S128x512 .bf16)
      = tabT (W (Proc.devRef .tc main_v8)) (W (Proc.devRef .tc main_v14)) := by
  simp only [opsC, Gen.hostOps0_2, List.drop_succ_cons, List.drop_zero]
  after_results
  rfl

/-- The table the region reads, as one term over the launched arguments. -/
theorem tab_eq (c : Dev nD) :
    tabV m c = tabT (tV (hidV (A1 m c) (A3 m c) (A4 m c)) (A5 m c) (A6 m c))
      (gV (tV (hidV (A1 m c) (A3 m c) (A4 m c)) (A5 m c) (A6 m c)) (A7 m c) (A8 m c)) := by
  dsimp only [tabV, Gen.V]
  simp only [List.flatten_cons, List.flatten_nil, List.append_nil]
  rw [ops_split, after_split, after_split, after_split, after_split, runC_tab, runG_g, runG_t, runT_t, runT_arg7, runT_arg8,
    stage1_hid, stage1_arg5, stage1_arg6, stage1_arg7, stage1_arg8]

/-! ### text · W1: [64, 768] × [768, 1024] -/

theorem dotText_lhs0 (i : S64x1024.Idx) (q : dot_S64x768_S768x1024_S64x1024_1_0_0_1_n_n.contr.Idx) :
    (dot_S64x768_S768x1024_S64x1024_1_0_0_1_n_n.lhsIdx i q 0).val = (i 0).val := by
  unfold DotDims.lhsIdx
  rw [dif_neg (show ¬(0 : Fin S64x768.rank) ∈ dot_S64x768_S768x1024_S64x1024_1_0_0_1_n_n.lhsBatch by decide),
    dif_pos (show (0 : Fin S64x768.rank) ∈ dot_S64x768_S768x1024_S64x1024_1_0_0_1_n_n.lhsNonContracting by decide)]
  rfl
theorem dotText_lhs1 (i : S64x1024.Idx) (q : dot_S64x768_S768x1024_S64x1024_1_0_0_1_n_n.contr.Idx) :
    (dot_S64x768_S768x1024_S64x1024_1_0_0_1_n_n.lhsIdx i q 1).val = (q ⟨0, by decide⟩).val :=
  dot_S64x768_S768x1024_S64x1024_1_0_0_1_n_n.lhsIdx_val_of_single rfl i q
theorem dotText_rhs0 (i : S64x1024.Idx) (q : dot_S64x768_S768x1024_S64x1024_1_0_0_1_n_n.contr.Idx) :
    (dot_S64x768_S768x1024_S64x1024_1_0_0_1_n_n.rhsIdx i q 0).val = (q ⟨0, by decide⟩).val :=
  dot_S64x768_S768x1024_S64x1024_1_0_0_1_n_n.rhsIdx_val_of_single rfl i q
theorem dotText_rhs1 (i : S64x1024.Idx) (q : dot_S64x768_S768x1024_S64x1024_1_0_0_1_n_n.contr.Idx) :
    (dot_S64x768_S768x1024_S64x1024_1_0_0_1_n_n.rhsIdx i q 1).val = (i 1).val := by
  unfold DotDims.rhsIdx
  rw [dif_neg (show ¬(1 : Fin S768x1024.rank) ∈ dot_S64x768_S768x1024_S64x1024_1_0_0_1_n_n.rhsBatch by decide),
    dif_pos (show (1 : Fin S768x1024.rank) ∈ dot_S64x768_S768x1024_S64x1024_1_0_0_1_n_n.rhsNonContracting by decide)]
  rfl

/-- The product at (p, q) is the sum over the one contracted axis of row p of the left times column q of the right. -/
theorem dotText_apply (x : FVec Ideal S64x768 .f32) (y : FVec Ideal S768x1024 .f32) (p : Fin 64) (q : Fin 1024) :
    Host.dotGeneral (F := Ideal) dot_S64x768_S768x1024_S64x1024_1_0_0_1_n_n none x y (ix2 p q)
      = ∑ k : Fin 768, x (ix2 p k) * y (ix2 k q) := by
  simp only [Host.dotGeneral]
  rw [Ideal.dotGeneral_apply, ← Equiv.sum_comp (contrEquiv1 dot_S64x768_S768x1024_S64x1024_1_0_0_1_n_n 768 rfl rfl).symm]
  refine Finset.sum_congr rfl fun k _ => ?_
  have hk := contrEquiv1_symm_val dot_S64x768_S768x1024_S64x1024_1_0_0_1_n_n 768 rfl rfl k
  have el : dot_S64x768_S768x1024_S64x1024_1_0_0_1_n_n.lhsIdx (ix2 p q) ((contrEquiv1 dot_S64x768_S768x1024_S64x1024_1_0_0_1_n_n 768 rfl rfl).symm k) = ix2 p k :=
    funext fun a => Fin.ext (by
      match a with
      | ⟨0, _⟩ => exact dotText_lhs0 _ _
      | ⟨1, _⟩ => exact (dotText_lhs1 _ _).trans hk)
  have er : dot_S64x768_S768x1024_S64x1024_1_0_0_1_n_n.rhsIdx (ix2 p q) ((contrEquiv1 dot_S64x768_S768x1024_S64x1024_1_0_0_1_n_n 768 rfl rfl).symm k) = ix2 k q :=
    funext fun a => Fin.ext (by
      match a with
      | ⟨0, _⟩ => exact (dotText_rhs0 _ _).trans hk
      | ⟨1, _⟩ => exact dotText_rhs1 _ _)
  rw [el, er]

/-! ### hidden · W2: [64, 1024] × [1024, 256] -/

theorem dotHid_lhs0 (i : S64x256.Idx) (q : dot_S64x1024_S1024x256_S64x256_1_0_0_1_n_n.contr.Idx) :
    (dot_S64x1024_S1024x256_S64x256_1_0_0_1_n_n.lhsIdx i q 0).val = (i 0).val := by
  unfold DotDims.lhsIdx
  rw [dif_neg (show ¬(0 : Fin S64x1024.rank) ∈ dot_S64x1024_S1024x256_S64x256_1_0_0_1_n_n.lhsBatch by decide),
    dif_pos (show (0 : Fin S64x1024.rank) ∈ dot_S64x1024_S1024x256_S64x256_1_0_0_1_n_n.lhsNonContracting by decide)]
  rfl
theorem dotHid_lhs1 (i : S64x256.Idx) (q : dot_S64x1024_S1024x256_S64x256_1_0_0_1_n_n.contr.Idx) :
    (dot_S64x1024_S1024x256_S64x256_1_0_0_1_n_n.lhsIdx i q 1).val = (q ⟨0, by decide⟩).val :=
  dot_S64x1024_S1024x256_S64x256_1_0_0_1_n_n.lhsIdx_val_of_single rfl i q
theorem dotHid_rhs0 (i : S64x256.Idx) (q : dot_S64x1024_S1024x256_S64x256_1_0_0_1_n_n.contr.Idx) :
    (dot_S64x1024_S1024x256_S64x256_1_0_0_1_n_n.rhsIdx i q 0).val = (q ⟨0, by decide⟩).val :=
  dot_S64x1024_S1024x256_S64x256_1_0_0_1_n_n.rhsIdx_val_of_single rfl i q
theorem dotHid_rhs1 (i : S64x256.Idx) (q : dot_S64x1024_S1024x256_S64x256_1_0_0_1_n_n.contr.Idx) :
    (dot_S64x1024_S1024x256_S64x256_1_0_0_1_n_n.rhsIdx i q 1).val = (i 1).val := by
  unfold DotDims.rhsIdx
  rw [dif_neg (show ¬(1 : Fin S1024x256.rank) ∈ dot_S64x1024_S1024x256_S64x256_1_0_0_1_n_n.rhsBatch by decide),
    dif_pos (show (1 : Fin S1024x256.rank) ∈ dot_S64x1024_S1024x256_S64x256_1_0_0_1_n_n.rhsNonContracting by decide)]
  rfl

/-- The product at (p, q) is the sum over the one contracted axis of row p of the left times column q of the right. -/
theorem dotHid_apply (x : FVec Ideal S64x1024 .f32) (y : FVec Ideal S1024x256 .f32) (p : Fin 64) (q : Fin 256) :
    Host.dotGeneral (F := Ideal) dot_S64x1024_S1024x256_S64x256_1_0_0_1_n_n none x y (ix2 p q)
      = ∑ k : Fin 1024, x (ix2 p k) * y (ix2 k q) := by
  simp only [Host.dotGeneral]
  rw [Ideal.dotGeneral_apply, ← Equiv.sum_comp (contrEquiv1 dot_S64x1024_S1024x256_S64x256_1_0_0_1_n_n 1024 rfl rfl).symm]
  refine Finset.sum_congr rfl fun k _ => ?_
  have hk := contrEquiv1_symm_val dot_S64x1024_S1024x256_S64x256_1_0_0_1_n_n 1024 rfl rfl k
  have el : dot_S64x1024_S1024x256_S64x256_1_0_0_1_n_n.lhsIdx (ix2 p q) ((contrEquiv1 dot_S64x1024_S1024x256_S64x256_1_0_0_1_n_n 1024 rfl rfl).symm k) = ix2 p k :=
    funext fun a => Fin.ext (by
      match a with
      | ⟨0, _⟩ => exact dotHid_lhs0 _ _
      | ⟨1, _⟩ => exact (dotHid_lhs1 _ _).trans hk)
  have er : dot_S64x1024_S1024x256_S64x256_1_0_0_1_n_n.rhsIdx (ix2 p q) ((contrEquiv1 dot_S64x1024_S1024x256_S64x256_1_0_0_1_n_n 1024 rfl rfl).symm k) = ix2 k q :=
    funext fun a => Fin.ext (by
      match a with
      | ⟨0, _⟩ => exact (dotHid_rhs0 _ _).trans hk
      | ⟨1, _⟩ => exact dotHid_rhs1 _ _)
  rw [el, er]

/-! ### t · (lower half of Wg): [64, 256] × [256, 256] -/

theorem dotGate_lhs0 (i : S64x256.Idx) (q : dot_S64x256_S256x256_S64x256_1_0_0_1_n_n.contr.Idx) :
    (dot_S64x256_S256x256_S64x256_1_0_0_1_n_n.lhsIdx i q 0).val = (i 0).val := by
  unfold DotDims.lhsIdx
  rw [dif_neg (show ¬(0 : Fin S64x256.rank) ∈ dot_S64x256_S256x256_S64x256_1_0_0_1_n_n.lhsBatch by decide),
    dif_pos (show (0 : Fin S64x256.rank) ∈ dot_S64x256_S256x256_S64x256_1_0_0_1_n_n.lhsNonContracting by decide)]
  rfl
theorem dotGate_lhs1 (i : S64x256.Idx) (q : dot_S64x256_S256x256_S64x256_1_0_0_1_n_n.contr.Idx) :
    (dot_S64x256_S256x256_S64x256_1_0_0_1_n_n.lhsIdx i q 1).val = (q ⟨0, by decide⟩).val :=
  dot_S64x256_S256x256_S64x256_1_0_0_1_n_n.lhsIdx_val_of_single rfl i q
theorem dotGate_rhs0 (i : S64x256.Idx) (q : dot_S64x256_S256x256_S64x256_1_0_0_1_n_n.contr.Idx) :
    (dot_S64x256_S256x256_S64x256_1_0_0_1_n_n.rhsIdx i q 0).val = (q ⟨0, by decide⟩).val :=
  dot_S64x256_S256x256_S64x256_1_0_0_1_n_n.rhsIdx_val_of_single rfl i q
theorem dotGate_rhs1 (i : S64x256.Idx) (q : dot_S64x256_S256x256_S64x256_1_0_0_1_n_n.contr.Idx) :
    (dot_S64x256_S256x256_S64x256_1_0_0_1_n_n.rhsIdx i q 1).val = (i 1).val := by
  unfold DotDims.rhsIdx
  rw [dif_neg (show ¬(1 : Fin S256x256.rank) ∈ dot_S64x256_S256x256_S64x256_1_0_0_1_n_n.rhsBatch by decide),
    dif_pos (show (1 : Fin S256x256.rank) ∈ dot_S64x256_S256x256_S64x256_1_0_0_1_n_n.rhsNonContracting by decide)]
  rfl

/-- The product at (p, q) is the sum over the one contracted axis of row p of the left times column q of the right. -/
theorem dotGate_apply (x : FVec Ideal S64x256 .f32) (y : FVec Ideal S256x256 .f32) (p : Fin 64) (q : Fin 256) :
    Host.dotGeneral (F := Ideal) dot_S64x256_S256x256_S64x256_1_0_0_1_n_n none x y (ix2 p q)
      = ∑ k : Fin 256, x (ix2 p k) * y (ix2 k q) := by
  simp only [Host.dotGeneral]
  rw [Ideal.dotGeneral_apply, ← Equiv.sum_comp (contrEquiv1 dot_S64x256_S256x256_S64x256_1_0_0_1_n_n 256 rfl rfl).symm]
  refine Finset.sum_congr rfl fun k _ => ?_
  have hk := contrEquiv1_symm_val dot_S64x256_S256x256_S64x256_1_0_0_1_n_n 256 rfl rfl k
  have el : dot_S64x256_S256x256_S64x256_1_0_0_1_n_n.lhsIdx (ix2 p q) ((contrEquiv1 dot_S64x256_S256x256_S64x256_1_0_0_1_n_n 256 rfl rfl).symm k) = ix2 p k :=
    funext fun a => Fin.ext (by
      match a with
      | ⟨0, _⟩ => exact dotGate_lhs0 _ _
      | ⟨1, _⟩ => exact (dotGate_lhs1 _ _).trans hk)
  have er : dot_S64x256_S256x256_S64x256_1_0_0_1_n_n.rhsIdx (ix2 p q) ((contrEquiv1 dot_S64x256_S256x256_S64x256_1_0_0_1_n_n 256 rfl rfl).symm k) = ix2 k q :=
    funext fun a => Fin.ext (by
      match a with
      | ⟨0, _⟩ => exact (dotGate_rhs0 _ _).trans hk
      | ⟨1, _⟩ => exact dotGate_rhs1 _ _)
  rw [el, er]

/-! ### The host terms read at an index -/

/-- A bias broadcast first to a row and then down the 64 rows reads its entry at the column. -/
theorem bias1024_apply (x : FVec Ideal S1024 .f32) (i : Fin 64) (k : Fin 1024) :
    broadcastInDim S64x1024 ![0, 1] bcast_S1x1024_S64x1024_0_1 (broadcastInDim S1x1024 ![1] bcast_S1024_S1x1024_1 x) (ix2 i k)
      = x (ix1 k) := by
  refine (broadcastInDim_apply _ bcast_S1x1024_S64x1024_0_1 _ (ix2 i k) (ix2 (0 : Fin 1) k) fun a => ?_).trans ?_
  · match a with
    | ⟨0, _⟩ => show 0 = if (1 : Nat) = 1 then 0 else i.val; rw [if_pos rfl]
    | ⟨1, _⟩ => show k.val = if (1024 : Nat) = 1 then 0 else k.val; rw [if_neg (by decide)]
  · refine broadcastInDim_apply _ bcast_S1024_S1x1024_1 x (ix2 (0 : Fin 1) k) (ix1 k) fun a => ?_
    match a with
    | ⟨0, _⟩ => show k.val = if (1024 : Nat) = 1 then 0 else k.val; rw [if_neg (by decide)]

theorem bias256_apply (x : FVec Ideal S256 .f32) (i : Fin 64) (j : Fin 256) :
    broadcastInDim S64x256 ![0, 1] bcast_S1x256_S64x256_0_1 (broadcastInDim S1x256 ![1] bcast_S256_S1x256_1 x) (ix2 i j)
      = x (ix1 j) := by
  refine (broadcastInDim_apply _ bcast_S1x256_S64x256_0_1 _ (ix2 i j) (ix2 (0 : Fin 1) j) fun a => ?_).trans ?_
  · match a with
    | ⟨0, _⟩ => show 0 = if (1 : Nat) = 1 then 0 else i.val; rw [if_pos rfl]
    | ⟨1, _⟩ => show j.val = if (256 : Nat) = 1 then 0 else j.val; rw [if_neg (by decide)]
  · refine broadcastInDim_apply _ bcast_S256_S1x256_1 x (ix2 (0 : Fin 1) j) (ix1 j) fun a => ?_
    match a with
    | ⟨0, _⟩ => show j.val = if (256 : Nat) = 1 then 0 else j.val; rw [if_neg (by decide)]

/-- The hidden layer's host term is the specification's hidden layer. -/
theorem hidV_apply (x1 : Mat 64 768) (x3 : Mat 768 1024) (x4 : Vec1 1024) (i : Fin 64) (k : Fin 1024) :
    hidV x1 x3 x4 (ix2 i k) = hidden x1 x3 x4 i k := by
  unfold hidV hidden
  rw [maximumf_apply, addf_apply, dotText_apply, bias1024_apply]
  congr 1
  refine (broadcastInDim_apply _ bcast_S_S64x1024 _ (ix2 i k) ix0 fun a => a.elim0).trans ?_
  rw [constant_apply, Ideal.ofBits_zero_f32]

/-- The text table's host term at (i, j): row i of its hidden operand against column j of W2, plus b2. -/
theorem tV_apply (h : FVec Ideal S64x1024 .f32) (x5 : Mat 1024 256) (x6 : Vec1 256) (i : Fin 64) (j : Fin 256) :
    tV h x5 x6 (ix2 i j) = (∑ k : Fin 1024, h (ix2 i k) * x5 (ix2 k j)) + x6 (ix1 j) := by
  unfold tV
  rw [addf_apply, dotHid_apply, bias256_apply]

/-- The gate part's host term at (i, j): row i of t against column j of the lower half of Wg, plus bg. -/
theorem gV_apply (t : FVec Ideal S64x256 .f32) (x7 : Mat 512 256) (x8 : Vec1 256) (i : Fin 64) (j : Fin 256) :
    gV t x7 x8 (ix2 i j) = (∑ k : Fin 256, t (ix2 i k) * x7 (ix2 (loRow k) j)) + x8 (ix1 j) := by
  unfold gV
  rw [addf_apply, dotGate_apply, bias256_apply]
  congr 1
  refine Finset.sum_congr rfl fun k _ => ?_
  congr 1
  refine extractStridedSlice_apply _ _ _ _ _ fun a => ?_
  match a with
  | ⟨0, _⟩ => show 256 + k.val = 256 + k.val; rfl
  | ⟨1, _⟩ => show j.val = 0 + j.val; omega

/-- The text table's host term over the hidden layer's is the specification's text table. -/
theorem tV_hidV (x1 : Mat 64 768) (x3 : Mat 768 1024) (x4 : Vec1 1024) (x5 : Mat 1024 256) (x6 : Vec1 256)
    (i : Fin 64) (j : Fin 256) :
    tV (hidV x1 x3 x4) x5 x6 (ix2 i j) = textProj x1 x3 x4 x5 x6 i j := by
  rw [tV_apply]
  unfold textProj
  congr 1
  exact Finset.sum_congr rfl fun k _ => by rw [hidV_apply]

/-! ### The two concatenations read at an index -/

/-- A row of the table's lower half. -/
abbrev dnRow (r : Fin 64) : Fin 128 := ⟨64 + r.val, by omega⟩

/-- Two [64, 256] blocks side by side: a column of the left half reads the left block … -/
theorem cols_left {α : Type} (x y : S64x256.Idx → α) (r : Fin 64) (j : Fin 256) :
    concatenate S64x512 1 [⟨S64x256, x⟩, ⟨S64x256, y⟩] concatenates_S64x256_S64x256_S64x512_d1 (ix2 r (hiRow j))
      = x (ix2 r j) := by
  refine concatenate_pair_apply_left _ x y _ (ix2 r (hiRow j)) rfl (ix2 r j) fun b => ?_
  match b with
  | ⟨0, _⟩ => rfl
  | ⟨1, _⟩ => rfl
/-- … and a column of the right half the right block, 256 columns earlier. -/
theorem cols_right {α : Type} (x y : S64x256.Idx → α) (r : Fin 64) (j : Fin 256) :
    concatenate S64x512 1 [⟨S64x256, x⟩, ⟨S64x256, y⟩] concatenates_S64x256_S64x256_S64x512_d1 (ix2 r (loRow j))
      = y (ix2 r j) := by
  refine concatenate_pair_apply_right _ x y _ (ix2 r (loRow j)) rfl rfl (ix2 r j) (fun b hb => ?_) ?_
  · match b with
    | ⟨0, _⟩ => rfl
    | ⟨1, _⟩ => exact absurd rfl hb
  · show j.val + 256 = 256 + j.val
    omega
/-- Two [64, 512] blocks one above the other: a row of the upper half reads the upper block … -/
theorem rows_upper {α : Type} (x y : S64x512.Idx → α) (r : Fin 64) (cc : Fin 512) :
    concatenate S128x512 0 [⟨S64x512, x⟩, ⟨S64x512, y⟩] concatenates_S64x512_S64x512_S128x512_d0 (ix2 (upRow r) cc)
      = x (ix2 r cc) := by
  refine concatenate_pair_apply_left _ x y _ (ix2 (upRow r) cc) rfl (ix2 r cc) fun b => ?_
  match b with
  | ⟨0, _⟩ => rfl
  | ⟨1, _⟩ => rfl
/-- … and a row of the lower half the lower block, 64 rows earlier. -/
theorem rows_lower {α : Type} (x y : S64x512.Idx → α) (r : Fin 64) (cc : Fin 512) :
    concatenate S128x512 0 [⟨S64x512, x⟩, ⟨S64x512, y⟩] concatenates_S64x512_S64x512_S128x512_d0 (ix2 (dnRow r) cc)
      = y (ix2 r cc) := by
  refine concatenate_pair_apply_right _ x y _ (ix2 (dnRow r) cc) rfl rfl (ix2 r cc) (fun b hb => ?_) ?_
  · match b with
    | ⟨0, _⟩ => exact absurd rfl hb
    | ⟨1, _⟩ => rfl
  · show r.val + 64 = 64 + r.val
    omega

/-- The table's four blocks. -/
theorem tabT_upper_left (t g : FVec Ideal S64x256 .f32) (r : Fin 64) (j : Fin 256) :
    tabT t g (ix2 (upRow r) (hiRow j)) = t (ix2 r j) := by
  unfold tabT
  rw [rows_upper, cols_left, truncf_apply]
theorem tabT_upper_right (t g : FVec Ideal S64x256 .f32) (r : Fin 64) (j : Fin 256) :
    tabT t g (ix2 (upRow r) (loRow j)) = g (ix2 r j) := by
  unfold tabT
  rw [rows_upper, cols_right, truncf_apply]
theorem tabT_lower_left (t g : FVec Ideal S64x256 .f32) (r : Fin 64) (j : Fin 256) :
    tabT t g (ix2 (dnRow r) (hiRow j)) = t (ix2 r j) - t (ix2 r j) := by
  unfold tabT
  rw [rows_lower, cols_left, truncf_apply, subf_apply, extf_apply, truncf_apply]
theorem tabT_lower_right (t g : FVec Ideal S64x256 .f32) (r : Fin 64) (j : Fin 256) :
    tabT t g (ix2 (dnRow r) (loRow j)) = 0 := by
  unfold tabT
  rw [rows_lower, cols_right]
  refine (broadcastInDim_apply _ bcast_S_S64x256 _ (ix2 r j) ix0 fun a => a.elim0).trans ?_
  rw [constant_apply]
  simp [Ideal.ofBits, Ideal.ieee]

/-! ### Real numbers are closed under the operations the text branch uses -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.max_zero {x : EReal} (hx : IsReal x) : IsReal (max x 0) := by
  rcases le_total x 0 with h | h
  · rw [max_eq_right h]; exact ⟨0, EReal.coe_zero.symm⟩
  · rw [max_eq_left h]; exact hx
theorem IsReal.sum {ι : Type} (s : Finset ι) (f : ι → EReal) (h : ∀ i ∈ s, IsReal (f i)) : IsReal (∑ i ∈ s, f i) := by
  classical
  induction s using Finset.induction_on with
  | empty => exact ⟨0, by rw [Finset.sum_empty, EReal.coe_zero]⟩
  | insert a s ha ih =>
    rw [Finset.sum_insert ha]
    exact (h a (Finset.mem_insert_self a s)).add (ih fun i hi => h i (Finset.mem_insert_of_mem hi))
/-- A real number less itself is zero. -/
theorem IsReal.sub_self {x : EReal} (hx : IsReal x) : x - x = 0 := by
  obtain ⟨a, rfl⟩ := hx
  rw [← EReal.coe_sub, _root_.sub_self, EReal.coe_zero]

/-- With real inputs every entry of the text table is a real number. -/
theorem textProj_real (x1 : Mat 64 768) (x3 : Mat 768 1024) (x4 : Vec1 1024) (x5 : Mat 1024 256) (x6 : Vec1 256)
    (h1 : AllReal x1) (h3 : AllReal x3) (h4 : AllReal x4) (h5 : AllReal x5) (h6 : AllReal x6) (i : Fin 64) (j : Fin 256) :
    IsReal (textProj x1 x3 x4 x5 x6 i j) := by
  unfold textProj hidden
  refine IsReal.add (IsReal.sum _ _ fun k _ => IsReal.mul (IsReal.max_zero (IsReal.add ?_ (h4 _))) (h5 _)) (h6 _)
  exact IsReal.sum _ _ fun l _ => IsReal.mul (h1 _) (h3 _)

end HostTable

open HostTable

/-! ## The seven facts -/

/-- The table's upper-left block is the text table t. -/
theorem table_hi (c : Dev nD) (r : Fin 64) (j : Fin 256) :
    tabV m c (ix2 (upRow r) (hiRow j))
      = textProj (A1 m c) (A3 m c) (A4 m c) (A5 m c) (A6 m c) r j := by
  rw [tab_eq, tabT_upper_left, tV_hidV]

/-- Its upper-right block is t · Wg₂ + bg. -/
theorem table_gate (c : Dev nD) (r : Fin 64) (j : Fin 256) :
    tabV m c (ix2 (upRow r) (loRow j))
      = gatePart (textProj (A1 m c) (A3 m c) (A4 m c) (A5 m c) (A6 m c)) (A7 m c) (A8 m c) r j := by
  rw [tab_eq, tabT_upper_right, gV_apply]
  unfold gatePart
  congr 1
  refine Finset.sum_congr rfl fun k _ => ?_
  rw [tV_hidV]

/-- Its lower 64 rows vanish when the text branch's inputs are real: t − t = 0 there, beside a block of zeros. -/
theorem table_lo (c : Dev nD) (h1 : AllReal (A1 m c)) (h3 : AllReal (A3 m c)) (h4 : AllReal (A4 m c))
    (h5 : AllReal (A5 m c)) (h6 : AllReal (A6 m c)) (r : Fin 128) (hr : 64 ≤ r.val) (cc : Fin 512) :
    tabV m c (ix2 r cc) = 0 := by
  have hlt := r.isLt
  obtain ⟨r0, rfl⟩ : ∃ r0 : Fin 64, r = dnRow r0 :=
    ⟨⟨r.val - 64, by omega⟩, Fin.ext (by show r.val = 64 + (r.val - 64); omega)⟩
  rw [tab_eq]
  rcases Nat.lt_or_ge cc.val 256 with h | h
  · -- left of the middle: t − t at a real entry of t
    obtain ⟨j, rfl⟩ : ∃ j : Fin 256, cc = hiRow j := ⟨⟨cc.val, h⟩, rfl⟩
    rw [tabT_lower_left, tV_hidV]
    exact (textProj_real _ _ _ _ _ h1 h3 h4 h5 h6 r0 j).sub_self
  · -- right of the middle: the block of zeros
    have hc := cc.isLt
    obtain ⟨j, rfl⟩ : ∃ j : Fin 256, cc = loRow j :=
      ⟨⟨cc.val - 256, by omega⟩, Fin.ext (by show cc.val = 256 + (cc.val - 256); omega)⟩
    exact tabT_lower_right _ _ r0 j

/-- The gate matrix's upper half, as the region reads it. -/
theorem wg1_at (c : Dev nD) (k j : Fin 256) :
    wg1V m c (ix2 k j) = A7 m c (ix2 (hiRow k) j) := by
  -- the array is the slice of the gate matrix at offsets (0, 0), its change of format the identity
  have e : wg1V m c = truncf (F := Ideal) .bf16
      (extractStridedSlice S256x256 ![0, 0] (A7 m c) slices_S512x256_S256x256_0_0) bitsLt_bf16_f32 := by
    dsimp only [wg1V, Gen.V]
    simp only [Gen.hostOps0, Gen.hostOps0_1, Gen.hostOps0_2, List.flatten_cons, List.flatten_nil, List.append_nil, List.cons_append, List.nil_append]
    after_results
  rw [e, truncf_apply]
  refine extractStridedSlice_apply _ _ _ _ _ fun a => ?_
  match a with
  | ⟨0, _⟩ => show k.val = 0 + k.val; omega
  | ⟨1, _⟩ => show j.val = 0 + j.val; omega

/-- The segment words as a column. -/
theorem seg_at (c : Dev nD) (n : Fin 131072) :
    segV m c (ix2 n (0 : Fin 1)) = A2 m c (ix1 n) := by
  -- a reshape keeps the row-major position: n · 1 + 0 = n
  have e : segV m c = shapeCast S131072x1 (A2 m c) shapeCasts_S131072_S131072x1 := by
    dsimp only [segV, Gen.V]
    simp only [Gen.hostOps0, Gen.hostOps0_1, Gen.hostOps0_2, List.flatten_cons, List.flatten_nil, List.append_nil, List.cons_append, List.nil_append]
    after_results
    rfl
  rw [e]
  refine shapeCast_apply _ _ _ _ ?_
  rw [Shape.rowMajor_val_two, Shape.rowMajor_val_one]
  show n.val = n.val * 1 + 0
  omega

/-- The scale as a row. -/
theorem gamma_at (c : Dev nD) (j : Fin 256) :
    gammaV m c (ix2 (0 : Fin 1) j) = A9 m c (ix1 j) := by
  -- a reshape keeps the row-major position: 0 · 256 + j = j
  have e : gammaV m c = shapeCast S1x256 (A9 m c) shapeCasts_S256_S1x256 := by
    dsimp only [gammaV, Gen.V]
    simp only [Gen.hostOps0, Gen.hostOps0_1, Gen.hostOps0_2, List.flatten_cons, List.flatten_nil, List.append_nil, List.cons_append, List.nil_append]
    after_results
    rfl
  rw [e]
  refine shapeCast_apply _ _ _ _ ?_
  rw [Shape.rowMajor_val_two, Shape.rowMajor_val_one]
  show j.val = 0 * 256 + j.val
  omega

/-- The shift as a row. -/
theorem beta_at (c : Dev nD) (j : Fin 256) :
    betaV m c (ix2 (0 : Fin 1) j) = A10 m c (ix1 j) := by
  -- a reshape keeps the row-major position: 0 · 256 + j = j
  have e : betaV m c = shapeCast S1x256 (A10 m c) shapeCasts_S256_S1x256 := by
    dsimp only [betaV, Gen.V]
    simp only [Gen.hostOps0, Gen.hostOps0_1, Gen.hostOps0_2, List.flatten_cons, List.flatten_nil, List.append_nil, List.cons_append, List.nil_append]
    after_results
    rfl
  rw [e]
  refine shapeCast_apply _ _ _ _ ?_
  rw [Shape.rowMajor_val_two, Shape.rowMajor_val_one]
  show j.val = 0 * 256 + j.val
  omega

end Cert.Fusion

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.BodyValue.lean ====
/-
  The kernel body's normalised value at one entry of a block, as a function of the blocks it loads.

  The body is read in three stages, each at one entry: the 0/1 matrix built from the segment column (its entry is the
  weight `hot`), the gated rows (two matrix products into zero, read as sums over the contracted axis, the first cut
  into its two column halves), and the normalisation (a row's lane sum viewed as a column, divided, spread back over
  the lanes).
-/
import proofs.«429601_j48189533061148_3_alg».proof.Proof.Gen.KernelIdeal.Skeleton
import proofs.«429601_j48189533061148_3_alg».proof.Proof.Spec
import proofs.«429601_j48189533061148_3_alg».proof.Proof.LibMatmulAt
import Idealize.ShloMosaic.Lib.Pipeline.Value

noncomputable section

namespace Cert.Fusion

open Idealize.ShloMosaic Idealize.ShloMosaic.ValueIdx Cert.KernelIdeal
open Cert.KernelIdeal.Facts₀
open scoped BigOperators

/-- A column [4096] viewed [4096, 1] reads row p at p. -/
theorem colCast_at {α : Type} (v : S4096.Idx → α) (h : S4096.ShapeCasts S4096x1) (p : Fin 4096) :
    shapeCast S4096x1 v h (ix2 p (0 : Fin 1)) = v (ix1 p) := by
  refine shapeCast_apply v h _ _ ?_
  rw [Shape.rowMajor_val_two, Shape.rowMajor_val_one]
  show p.val = p.val * 1 + 0
  omega

/-- A column [4096, 1] broadcast along 256 lanes reads (p, q) at (p, 0). -/
theorem bcast256_at {α : Type} (col : S4096x1.Idx → α) (h : S4096x1.Broadcasts S4096x256) (p : Fin 4096) (q : Fin 256) :
    broadcastTo S4096x256 col h (ix2 p q) = col (ix2 p (0 : Fin 1)) := by
  refine broadcastTo_apply col h _ _ fun a => ?_
  match a with
  | ⟨0, _⟩ => rfl
  | ⟨1, _⟩ => rfl

/-- The same along 128 lanes. -/
theorem bcast128_at {α : Type} (col : S4096x1.Idx → α) (h : S4096x1.Broadcasts S4096x128) (p : Fin 4096) (r : Fin 128) :
    broadcastTo S4096x128 col h (ix2 p r) = col (ix2 p (0 : Fin 1)) := by
  refine broadcastTo_apply col h _ _ fun a => ?_
  match a with
  | ⟨0, _⟩ => rfl
  | ⟨1, _⟩ => rfl

/-- The sum along the 256 lanes of row p. -/
theorem laneSum_at (src : FVec Ideal S4096x256 .f32) (h : S4096x256.Reduces [1] S4096) (hφ : FKind.Formats .f32)
    (hacc : (0x00000000#32 : BitVec 32) = 0x00000000#32) (p : Fin 4096) :
    multiReduction (F := Ideal) .add [1] S4096 src 0x00000000#32 h hφ hacc (ix1 p) = ∑ k : Fin 256, src (ix2 p k) := by
  refine (Ideal.multiReduction_add_single src _ h hφ hacc (ix1 p)).trans ?_
  refine Finset.sum_congr rfl fun k _ => congrArg src ?_
  funext a
  apply Fin.ext
  match a with
  | ⟨0, _⟩ => rfl
  | ⟨1, _⟩ => rfl

/-- The left half of a 512-column row. -/
theorem sliceHi_at {α : Type} (x : S4096x512.Idx → α) (h : S4096x512.Slices ![0, 0] S4096x256) (p : Fin 4096) (q : Fin 256) :
    extractStridedSlice S4096x256 ![0, 0] x h (ix2 p q) = x (ix2 p (hiRow q)) := by
  refine extractStridedSlice_apply _ x h _ _ fun a => ?_
  match a with
  | ⟨0, _⟩ => show p.val = 0 + p.val; omega
  | ⟨1, _⟩ => show q.val = 0 + q.val; omega

/-- The right half of a 512-column row. -/
theorem sliceLo_at {α : Type} (x : S4096x512.Idx → α) (h : S4096x512.Slices ![0, 256] S4096x256) (p : Fin 4096) (q : Fin 256) :
    extractStridedSlice S4096x256 ![0, 256] x h (ix2 p q) = x (ix2 p (loRow q)) := by
  refine extractStridedSlice_apply _ x h _ _ fun a => ?_
  match a with
  | ⟨0, _⟩ => show p.val = 0 + p.val; omega
  | ⟨1, _⟩ => show 256 + q.val = 256 + q.val; rfl

/-- The 0/1 matrix of the block's segment column, as the body builds it: the column and the column plus 64, each
    spread over 128 lanes and compared with the lane number; the two tests joined, widened to 32 bits and read as a float. -/
def hotMat (x1 : Vec Ideal S4096x1 .i32) (hc : S4096x1.ShapeCasts S4096x1) (hi : S4096x128.Iotas .tc 32 [1])
    (hb : S4096x1.Broadcasts S4096x128) (h1 : 1 < 32) (ht : FTy.bits .bf16 < FTy.bits .f32) : FVec Ideal S4096x128 .bf16 :=
  have v2 : IVec S4096x1 32 := shapeCast S4096x1 x1 hc
  have v3 : IVec S4096x128 32 := iota .tc S4096x128 32 [1] hi
  have v4 : IVec S4096x128 32 := broadcastTo S4096x128 v2 hb
  have v5 : IVec S4096x128 1 := cmpi .eq v4 v3
  have v6 : IVec S4096x1 32 := broadcast S4096x1 64#32
  have v7 : IVec S4096x1 32 := addi v2 v6
  have v8 : IVec S4096x128 32 := broadcastTo S4096x128 v7 hb
  have v9 : IVec S4096x128 1 := cmpi .eq v8 v3
  have v10 : IVec S4096x128 1 := ori v5 v9
  have v11 : IVec S4096x128 32 := extui 32 v10 h1
  have v12 : FVec Ideal S4096x128 .f32 := sitofp .f32 v11
  truncf .bf16 v12 ht

/-- Entry (p, r) of that matrix is the weight `hot` of lane r for row p's segment word. -/
theorem hotMat_at (x1 : Vec Ideal S4096x1 .i32) (hc : S4096x1.ShapeCasts S4096x1) (hi : S4096x128.Iotas .tc 32 [1])
    (hb : S4096x1.Broadcasts S4096x128) (h1 : 1 < 32) (ht : FTy.bits .bf16 < FTy.bits .f32) (p : Fin 4096) (r : Fin 128) :
    hotMat x1 hc hi hb h1 ht (ix2 p r) = hot (x1 (ix2 p (0 : Fin 1))) r := by
  have h3 : iota .tc S4096x128 32 [1] hi (ix2 p r) = BitVec.ofNat 32 r.val :=
    iota_single_apply .tc S4096x128 32 1 hi (ix2 p r)
  have h4 : broadcastTo S4096x128 (shapeCast S4096x1 x1 hc) hb (ix2 p r) = x1 (ix2 p (0 : Fin 1)) := by
    rw [bcast128_at, shapeCast_self]
  have h8 : broadcastTo S4096x128 (addi (shapeCast S4096x1 x1 hc) (broadcast S4096x1 64#32)) hb (ix2 p r)
      = IntOp.addi (x1 (ix2 p (0 : Fin 1))) 64#32 := by
    rw [bcast128_at, shapeCast_self]
    rfl
  show (((BitVec.setWidth 32 (IntOp.ori
      (IntOp.cmpi .eq (broadcastTo S4096x128 (shapeCast S4096x1 x1 hc) hb (ix2 p r)) (iota .tc S4096x128 32 [1] hi (ix2 p r)))
      (IntOp.cmpi .eq (broadcastTo S4096x128 (addi (shapeCast S4096x1 x1 hc) (broadcast S4096x1 64#32)) hb (ix2 p r))
        (iota .tc S4096x128 32 [1] hi (ix2 p r))))).toInt : ℝ) : EReal) = _
  rw [h3, h4, h8]
  rfl

/-- The product of the 0/1 matrix with the table: the left operand is read at the result's row … -/
theorem selDot_l0 (i : S4096x512.Idx) (q : dot_S4096x128_S128x512_S4096x512_1_0_0_1_n_n.contr.Idx) :
    (dot_S4096x128_S128x512_S4096x512_1_0_0_1_n_n.lhsIdx i q 0).val = (i 0).val := by
  unfold DotDims.lhsIdx
  rw [dif_neg (show ¬(0 : Fin S4096x128.rank) ∈ dot_S4096x128_S128x512_S4096x512_1_0_0_1_n_n.lhsBatch by decide), dif_pos (show (0 : Fin S4096x128.rank) ∈ dot_S4096x128_S128x512_S4096x512_1_0_0_1_n_n.lhsNonContracting by decide)]
  rfl
/-- … and at the summation index; -/
theorem selDot_l1 (i : S4096x512.Idx) (q : dot_S4096x128_S128x512_S4096x512_1_0_0_1_n_n.contr.Idx) :
    (dot_S4096x128_S128x512_S4096x512_1_0_0_1_n_n.lhsIdx i q 1).val = (q ⟨0, by decide⟩).val :=
  dot_S4096x128_S128x512_S4096x512_1_0_0_1_n_n.lhsIdx_val_of_single rfl i q
/-- the right operand at the summation index … -/
theorem selDot_r0 (i : S4096x512.Idx) (q : dot_S4096x128_S128x512_S4096x512_1_0_0_1_n_n.contr.Idx) :
    (dot_S4096x128_S128x512_S4096x512_1_0_0_1_n_n.rhsIdx i q 0).val = (q ⟨0, by decide⟩).val :=
  dot_S4096x128_S128x512_S4096x512_1_0_0_1_n_n.rhsIdx_val_of_single rfl i q
/-- … and at the result's column. -/
theorem selDot_r1 (i : S4096x512.Idx) (q : dot_S4096x128_S128x512_S4096x512_1_0_0_1_n_n.contr.Idx) :
    (dot_S4096x128_S128x512_S4096x512_1_0_0_1_n_n.rhsIdx i q 1).val = (i 1).val := by
  unfold DotDims.rhsIdx
  rw [dif_neg (show ¬(1 : Fin S128x512.rank) ∈ dot_S4096x128_S128x512_S4096x512_1_0_0_1_n_n.rhsBatch by decide), dif_pos (show (1 : Fin S128x512.rank) ∈ dot_S4096x128_S128x512_S4096x512_1_0_0_1_n_n.rhsNonContracting by decide)]
  rfl

/-- The product of the node block with the upper gate weights: the left operand is read at the result's row … -/
theorem nodeDot_l0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
/-- … and at the summation index; -/
theorem nodeDot_l1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
/-- the right operand at the summation index … -/
theorem nodeDot_r0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
/-- … and at the result's column. -/
theorem nodeDot_r1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The gated rows as the body computes them from the node block, a 0/1 matrix, the table and the upper gate weights:
    the product of the 0/1 matrix with the table, cut into its two column halves; the product of the node block with the
    weights; their sum with the right half through the logistic function, times the left half, added to the node block. -/
def gateChain (x0 : Vec Ideal S4096x256 .f32) (A : FVec Ideal S4096x128 .bf16) (x2 : Vec Ideal S128x512 .bf16)
    (x3 : Vec Ideal S256x256 .bf16) (hc2 : S128x512.ShapeCasts S128x512) (hs0 : S4096x512.Slices ![0, 0] S4096x256)
    (hs1 : S4096x512.Slices ![0, 256] S4096x256) (ht : FTy.bits .bf16 < FTy.bits .f32)
    (hc3 : S256x256.ShapeCasts S256x256) : FVec Ideal S4096x256 .f32 :=
  have v15 : FVec Ideal S128x512 .bf16 := shapeCast S128x512 x2 hc2
  have cst : FVec Ideal S4096x512 .f32 := constant S4096x512 .f32 0x00000000#32
  have v16 : FVec Ideal S4096x512 .f32 := matmul dot_S4096x128_S128x512_S4096x512_1_0_0_1_n_n none A v15 cst
  have v17 : FVec Ideal S4096x256 .f32 := extractStridedSlice S4096x256 ![0, 0] v16 hs0
  have v18 : FVec Ideal S4096x256 .f32 := extractStridedSlice S4096x256 ![0, 256] v16 hs1
  have v19 : FVec Ideal S4096x256 .bf16 := truncf .bf16 x0 ht
  have v21 : FVec Ideal S256x256 .bf16 := shapeCast S256x256 x3 hc3
  have cst_7 : FVec Ideal S4096x256 .f32 := constant S4096x256 .f32 0x00000000#32
  have v22 : FVec Ideal S4096x256 .f32 := matmul dot_S4096x256_S256x256_S4096x256_1_0_0_1_n_n none v19 v21 cst_7
  have v23 : FVec Ideal S4096x256 .f32 := addf v22 v18
  have v24 : FVec Ideal S4096x256 .f32 := logistic v23
  have v25 : FVec Ideal S4096x256 .f32 := mulf v24 v17
  addf x0 v25

/-- Entry (p, j) of the gated rows, when row p of the 0/1 matrix is the weight row of the word w. -/
theorem gateChain_at (x0 : Vec Ideal S4096x256 .f32) (A : FVec Ideal S4096x128 .bf16) (x2 : Vec Ideal S128x512 .bf16)
    (x3 : Vec Ideal S256x256 .bf16) (hc2 : S128x512.ShapeCasts S128x512) (hs0 : S4096x512.Slices ![0, 0] S4096x256)
    (hs1 : S4096x512.Slices ![0, 256] S4096x256) (ht : FTy.bits .bf16 < FTy.bits .f32)
    (hc3 : S256x256.ShapeCasts S256x256) (w : BitVec 32) (p : Fin 4096) (hA : ∀ r : Fin 128, A (ix2 p r) = hot w r)
    (j : Fin 256) :
    gateChain x0 A x2 x3 hc2 hs0 hs1 ht hc3 (ix2 p j)
      = x0 (ix2 p j) + Ideal.logistic ((∑ k : Fin 256, x0 (ix2 p k) * x3 (ix2 k j)) + sel w x2 (loRow j))
          * sel w x2 (hiRow j) := by
  have hT : ∀ c : Fin 512, matmul (φ₂ := .bf16) dot_S4096x128_S128x512_S4096x512_1_0_0_1_n_n none A (shapeCast S128x512 x2 hc2)
      (constant (F := Ideal) S4096x512 .f32 0x00000000#32) (ix2 p c) = sel w x2 c := by
    intro c
    rw [shapeCast_self]
    refine (Idealize.ShloMosaic.MatmulAt.matmul_zero_at dot_S4096x128_S128x512_S4096x512_1_0_0_1_n_n rfl rfl selDot_l0 selDot_l1 selDot_r0 selDot_r1 none A x2 p c).trans ?_
    unfold sel
    exact Finset.sum_congr rfl fun r _ => by rw [hA]
  have hN : matmul (φ₂ := .bf16) dot_S4096x256_S256x256_S4096x256_1_0_0_1_n_n none (truncf .bf16 x0 ht) (shapeCast S256x256 x3 hc3)
      (constant (F := Ideal) S4096x256 .f32 0x00000000#32) (ix2 p j) = ∑ k : Fin 256, x0 (ix2 p k) * x3 (ix2 k j) := by
    rw [shapeCast_self]
    exact Idealize.ShloMosaic.MatmulAt.matmul_zero_at dot_S4096x256_S256x256_S4096x256_1_0_0_1_n_n rfl rfl nodeDot_l0 nodeDot_l1 nodeDot_r0 nodeDot_r1 none (truncf .bf16 x0 ht) x3 p j
  show x0 (ix2 p j) + Ideal.logistic
      (matmul (φ₂ := .bf16) dot_S4096x256_S256x256_S4096x256_1_0_0_1_n_n none (truncf .bf16 x0 ht) (shapeCast S256x256 x3 hc3) (constant (F := Ideal) S4096x256 .f32 0x00000000#32) (ix2 p j)
        + extractStridedSlice S4096x256 ![0, 256] (matmul (φ₂ := .bf16) dot_S4096x128_S128x512_S4096x512_1_0_0_1_n_n none A (shapeCast S128x512 x2 hc2)
            (constant (F := Ideal) S4096x512 .f32 0x00000000#32)) hs1 (ix2 p j))
      * extractStridedSlice S4096x256 ![0, 0] (matmul (φ₂ := .bf16) dot_S4096x128_S128x512_S4096x512_1_0_0_1_n_n none A (shapeCast S128x512 x2 hc2)
            (constant (F := Ideal) S4096x512 .f32 0x00000000#32)) hs0 (ix2 p j) = _
  rw [hN, sliceLo_at, sliceHi_at, hT, hT]

/-- The column of row means of a block: each row's lane sum, viewed as a column, divided by the printed 256. -/
def meanCol (v : FVec Ideal S4096x256 .f32) (hR : S4096x256.Reduces [1] S4096) (hC : S4096.ShapeCasts S4096x1) :
    FVec Ideal S4096x1 .f32 :=
  have v27 : FVec Ideal S4096 .f32 := multiReduction .add [1] S4096 v 0x00000000#32 hR (.inl rfl) rfl
  have v28 : FVec Ideal S4096x1 .f32 := shapeCast S4096x1 v27 hC
  have c : Ideal .f32 := Scalar.ofBits .f32 0x43800000#32
  have v29 : FVec Ideal S4096x1 .f32 := broadcast S4096x1 c
  divf v28 v29

/-- Row p of that column is the mean of row p. -/
theorem meanCol_at (v : FVec Ideal S4096x256 .f32) (hR : S4096x256.Reduces [1] S4096) (hC : S4096.ShapeCasts S4096x1)
    (p : Fin 4096) : meanCol v hR hC (ix2 p (0 : Fin 1)) = rowMean (fun k : Fin 256 => v (ix2 p k)) := by
  show Ideal.div (shapeCast S4096x1 (multiReduction (F := Ideal) .add [1] S4096 v 0x00000000#32 hR (.inl rfl) rfl) hC
      (ix2 p (0 : Fin 1))) c256 = _
  rw [colCast_at, laneSum_at]
  rfl

/-- The normalisation as the body computes it: subtract the mean column, take the mean column of the squares, add the
    printed ε, take the reciprocal square root and multiply. -/
def normChain (v : FVec Ideal S4096x256 .f32) (hR : S4096x256.Reduces [1] S4096) (hC : S4096.ShapeCasts S4096x1)
    (hB : S4096x1.Broadcasts S4096x256) : FVec Ideal S4096x256 .f32 :=
  have v30 : FVec Ideal S4096x1 .f32 := meanCol v hR hC
  have v31 : FVec Ideal S4096x256 .f32 := broadcastTo S4096x256 v30 hB
  have v32 : FVec Ideal S4096x256 .f32 := subf v v31
  have v33 : FVec Ideal S4096x256 .f32 := mulf v32 v32
  have v37 : FVec Ideal S4096x1 .f32 := meanCol v33 hR hC
  have c : Ideal .f32 := Scalar.ofBits .f32 0x3A83126F#32
  have v38 : FVec Ideal S4096x1 .f32 := broadcast S4096x1 c
  have v39 : FVec Ideal S4096x1 .f32 := addf v37 v38
  have v40 : FVec Ideal S4096x1 .f32 := rsqrt v39
  have v41 : FVec Ideal S4096x256 .f32 := broadcastTo S4096x256 v40 hB
  mulf v32 v41

/-- Entry (p, q) of the normalised block is row p normalised, at q. -/
theorem normChain_at (v : FVec Ideal S4096x256 .f32) (hR : S4096x256.Reduces [1] S4096) (hC : S4096.ShapeCasts S4096x1)
    (hB : S4096x1.Broadcasts S4096x256) (p : Fin 4096) (q : Fin 256) :
    normChain v hR hC hB (ix2 p q) = normed (fun j : Fin 256 => v (ix2 p j)) q := by
  have hd : ∀ k : Fin 256, subf v (broadcastTo S4096x256 (meanCol v hR hC) hB) (ix2 p k)
      = v (ix2 p k) - rowMean (fun j : Fin 256 => v (ix2 p j)) := by
    intro k
    rw [subf_apply, bcast256_at, meanCol_at]
  have hv : meanCol (mulf (subf v (broadcastTo S4096x256 (meanCol v hR hC) hB))
        (subf v (broadcastTo S4096x256 (meanCol v hR hC) hB))) hR hC (ix2 p (0 : Fin 1))
      = rowMean (fun k : Fin 256 => (v (ix2 p k) - rowMean (fun j : Fin 256 => v (ix2 p j)))
          * (v (ix2 p k) - rowMean (fun j : Fin 256 => v (ix2 p j)))) := by
    rw [meanCol_at]
    refine congrArg rowMean (funext fun k => ?_)
    rw [mulf_apply, hd]
  show subf v (broadcastTo S4096x256 (meanCol v hR hC) hB) (ix2 p q)
      * broadcastTo S4096x256 (rsqrt (addf (meanCol (mulf (subf v (broadcastTo S4096x256 (meanCol v hR hC) hB))
          (subf v (broadcastTo S4096x256 (meanCol v hR hC) hB))) hR hC)
          (broadcast S4096x1 (Scalar.ofBits (F := Ideal) .f32 0x3A83126F#32)))) hB (ix2 p q) = _
  rw [bcast256_at, hd]
  show _ * Ideal.rsqrt (meanCol (mulf (subf v (broadcastTo S4096x256 (meanCol v hR hC) hB))
          (subf v (broadcastTo S4096x256 (meanCol v hR hC) hB))) hR hC (ix2 p (0 : Fin 1)) + cEps) = _
  rw [hv]
  rfl

/-- Entry (p, q) of the body's value before scale and shift: row p of the node block gated by the table columns
    its 0/1 row selects, then normalised. -/
theorem body_at (x0 : Vec Ideal S4096x256 .f32) (x1 : Vec Ideal S4096x1 .i32) (x2 : Vec Ideal S128x512 .bf16)
    (x3 : Vec Ideal S256x256 .bf16) (p : Fin 4096) (q : Fin 256) :
    Cert.KernelIdeal.Gen.k0_pay2 (F := Ideal) x0 x1 x2 x3 (ix2 p q)
      = normed (fun j : Fin 256 => x0 (ix2 p j)
          + Ideal.logistic ((∑ k : Fin 256, x0 (ix2 p k) * x3 (ix2 k j)) + sel (x1 (ix2 p (0 : Fin 1))) x2 (loRow j))
            * sel (x1 (ix2 p (0 : Fin 1))) x2 (hiRow j)) q := by
  -- the body is the normalisation of the gated rows built on the 0/1 matrix of the segment column
  have hbody : Cert.KernelIdeal.Gen.k0_pay2 (F := Ideal) x0 x1 x2 x3
      = normChain (gateChain x0 (hotMat x1 shapeCasts_S4096x1_S4096x1 iota_S4096x128_d1_w32 broadcasts_S4096x1_S4096x128
            natLt_1_32 bitsLt_bf16_f32) x2 x3 shapeCasts_S128x512_S128x512 slices_S4096x512_o0_0_S4096x256
            slices_S4096x512_o0_256_S4096x256 bitsLt_bf16_f32 shapeCasts_S256x256_S256x256)
          reduces_S4096x256_S4096 shapeCasts_S4096_S4096x1 broadcasts_S4096x1_S4096x256 := rfl
  rw [hbody, normChain_at]
  refine congrArg (fun e : Fin 256 → EReal => normed e q) (funext fun j => ?_)
  exact gateChain_at x0 _ x2 x3 _ _ _ _ _ (x1 (ix2 p (0 : Fin 1))) p
    (fun r => hotMat_at x1 _ _ _ _ _ p r) j

end Cert.Fusion

end
-- ==== Proof.OneHot.lean ====
/-
  The 0/1 row of a segment word in [−64, 64) selects one row of the table's upper half, when the lower half is zero.
-/
import proofs.«429601_j48189533061148_3_alg».proof.Proof.Spec

noncomputable section

namespace Cert.Fusion

open Idealize.ShloMosaic Idealize.ShloMosaic.ValueIdx
open scoped BigOperators

/-- The 32-bit widening of the "or" of two one-bit truth values is the integer 1 when either holds, else 0. -/
private theorem bit_cases (a b : Bool) :
    (BitVec.setWidth 32 (BitVec.ofBool a ||| BitVec.ofBool b)).toInt = if (a || b) then 1 else 0 := by
  cases a <;> cases b <;> decide

/-- A word equals the 32-bit word of a row number r < 128 exactly when its signed value is r:
    a row number below 2³¹ is its own signed value, and the signed value determines the word. -/
private theorem eq_row_iff (w : BitVec 32) (r : Fin 128) :
    (w == BitVec.ofNat 32 r.val) = decide (w.toInt = (r.val : ℤ)) := by
  have hr := r.isLt
  rw [Bool.eq_iff_iff]
  simp only [beq_iff_eq, decide_eq_true_eq]
  constructor
  · intro h; subst h
    rw [BitVec.toInt_eq_toNat_cond, BitVec.toNat_ofNat]; omega
  · intro h
    apply BitVec.eq_of_toInt_eq
    rw [h, BitVec.toInt_eq_toNat_cond, BitVec.toNat_ofNat]; omega

/-- For −64 ≤ w < 64 the wrapping sum w + 64 does not wrap: its signed value is the integer sum, which lies in [0, 128). -/
private theorem add_toInt (w : BitVec 32) (hlo : -64 ≤ w.toInt) (hhi : w.toInt < 64) :
    (w + 64#32).toInt = w.toInt + 64 := by
  rw [BitVec.toInt_add]
  have : (64#32).toInt = 64 := by decide
  rw [this]
  unfold Int.bmod
  dsimp only
  split <;> omega

/-- The shifted word equals row number r exactly when the word's signed value plus 64 is r. -/
private theorem eq_row_add_iff (w : BitVec 32) (hlo : -64 ≤ w.toInt) (hhi : w.toInt < 64) (r : Fin 128) :
    (w + 64#32 == BitVec.ofNat 32 r.val) = decide (w.toInt + 64 = (r.val : ℤ)) := by
  rw [eq_row_iff, add_toInt w hlo hhi]

/-- The weight of row r is one exactly when r is the word's signed value or that value plus 64, and zero otherwise. -/
private theorem hot_eq (w : BitVec 32) (hlo : -64 ≤ w.toInt) (hhi : w.toInt < 64) (r : Fin 128) :
    hot w r = if (w.toInt = (r.val : ℤ) ∨ w.toInt + 64 = (r.val : ℤ)) then 1 else 0 := by
  unfold hot IntOp.ori IntOp.cmpi IntOp.addi
  dsimp only
  rw [bit_cases, eq_row_iff, eq_row_add_iff w hlo hhi]
  by_cases h1 : w.toInt = (r.val : ℤ) <;> by_cases h2 : w.toInt + 64 = (r.val : ℤ) <;> simp [h1, h2]

/-- The table row of a word in [−64, 64): the word plus 64 when it is negative, the word itself otherwise
    (both already lie in [0, 63], so the clamp does nothing). -/
private theorem wrap_val (w : BitVec 32) (hlo : -64 ≤ w.toInt) (hhi : w.toInt < 64) :
    ((wrap w).val : ℤ) = if w.toInt < 0 then w.toInt + 64 else w.toInt := by
  have h0 : (0#32).toInt = 0 := by decide
  have h64 := add_toInt w hlo hhi
  unfold wrap Scalar.select IntOp.cmpi IntOp.addi
  dsimp only
  by_cases h : w.toInt < 0
  · have hs : w.slt 0#32 = true := BitVec.slt_iff_toInt_lt.mpr (by rw [h0]; exact h)
    have h1 : BitVec.ofBool true = 1#1 := rfl
    rw [hs, h1, if_pos (show (1#1 : BitVec 1) = 1 from rfl), if_pos h, h64]
    omega
  · have hs : w.slt 0#32 = false := by
      rw [Bool.eq_false_iff]; intro hc; exact h (by have := BitVec.slt_iff_toInt_lt.mp hc; rwa [h0] at this)
    have h1 : BitVec.ofBool false = 0#1 := rfl
    have h2 : ¬ ((0#1 : BitVec 1) = 1) := by decide
    rw [hs, h1, if_neg h2, if_neg h]
    omega

/-- For a word w with −64 ≤ w < 64 and a table column that vanishes on rows 64 … 127, the weighted column sum is the
    column's entry at row `wrap w`. Only one term of the sum survives: a row r ≥ 64 carries a zero entry; a row
    r < 64 other than `wrap w` has weight zero (for w ≥ 0 the only row equal to w is w itself and w + 64 ≥ 64; for
    w < 0 no row equals w and the only row equal to w + 64 is w + 64); and the row `wrap w` has weight one. -/
theorem sel_of_range (w : BitVec 32) (hlo : -64 ≤ w.toInt) (hhi : w.toInt < 64) (tab : Mat 128 512) (c : Fin 512)
    (hbot : ∀ r : Fin 128, 64 ≤ r.val → tab (ix2 r c) = 0) :
    sel w tab c = tab (ix2 (⟨(wrap w).val, by have := (wrap w).isLt; omega⟩ : Fin 128) c) := by
  have hw := wrap_val w hlo hhi
  unfold sel
  rw [Finset.sum_eq_single (⟨(wrap w).val, by have := (wrap w).isLt; omega⟩ : Fin 128)]
  · rw [hot_eq w hlo hhi, if_pos, one_mul]
    show w.toInt = ((wrap w).val : ℤ) ∨ w.toInt + 64 = ((wrap w).val : ℤ)
    split at hw <;> omega
  · intro r _ hr
    by_cases h64 : 64 ≤ r.val
    · rw [hbot r h64, mul_zero]
    · rw [hot_eq w hlo hhi, if_neg, zero_mul]
      intro hc
      apply hr
      apply Fin.ext
      show r.val = (wrap w).val
      split at hw <;> omega
  · intro h; exact absurd (Finset.mem_univ _) h

end Cert.Fusion

end
-- ==== Proof.KernelValue.lean ====
/-
  The kernel's result array is `fused` of its arguments.

  Grid point t works on rows 4096·t … 4096·t + 4095: it reads that block of the node features and of the segment
  column, and the whole table, gate matrix, scale and shift. For row p of the block, the 0/1 row of the node's segment
  word w picks, in the table's upper half, row `wrap w` — the text table's row and the segment's part of the gate's
  argument — because −64 ≤ w < 64 and the lower half vanishes. The gate's argument is then
  Σₖ node·Wg₁ + (Σₖ t·Wg₂ + bg), which is the reference's (Σₖ node·Wg₁ + Σₖ t·Wg₂) + bg by associativity of the sum of
  extended reals; the normalisation is the same function of the gated row on both sides. The 32 blocks tile the array
  (row r lies in block r / 4096), so the array after the run is `fused` everywhere.
-/
import proofs.«429601_j48189533061148_3_alg».proof.Proof.Gen.KernelIdeal.Value
import proofs.«429601_j48189533061148_3_alg».proof.Proof.HostTable
import proofs.«429601_j48189533061148_3_alg».proof.Proof.BodyValue
import proofs.«429601_j48189533061148_3_alg».proof.Proof.OneHot

noncomputable section

namespace Cert.Fusion

open Idealize.ShloMosaic Idealize.ShloMosaic.TcCoe Idealize.ShloMosaic.ValueIdx Idealize.SL.Sem
open Cert.KernelIdeal Cert.KernelIdeal.Gen Cert.KernelIdeal.Value
open Idealize.ShloMosaic.Pipeline (Dat)
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at grid point t: the node, segment and result windows at block row t, the
    others at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem lt32 (t : Fin cfg0.N) : t.val < 32 := lt_of_lt_of_eq t.isLt N_0

/-- Row p of block t, as a row of the array. -/
abbrev rowOf (t : Fin cfg0.N) (p : Fin 4096) : Fin 131072 := ⟨t.val * 4096 + p.val, by have := lt32 t; omega⟩

/-- The blocks the body loads at point t, at their literal types. -/
abbrev nodeBlk (c : Dev nD) (t : Fin cfg0.N) : Vec Ideal S4096x256 .f32 := iblk m c 0 t
abbrev segBlk (c : Dev nD) (t : Fin cfg0.N) : Vec Ideal S4096x1 .i32 := iblk m c 1 t
abbrev tabBlk (c : Dev nD) (t : Fin cfg0.N) : Vec Ideal S128x512 .bf16 := iblk m c 2 t
abbrev wgBlk (c : Dev nD) (t : Fin cfg0.N) : Vec Ideal S256x256 .bf16 := iblk m c 3 t
abbrev gammaBlk (c : Dev nD) (t : Fin cfg0.N) : Vec Ideal S1x256 .f32 := iblk m c 4 t
abbrev betaBlk (c : Dev nD) (t : Fin cfg0.N) : Vec Ideal S1x256 .f32 := iblk m c 5 t

/-- The node block's row p is row 4096·t + p of the node features. -/
theorem nodeBlk_at (c : Dev nD) (t : Fin cfg0.N) (p : Fin 4096) (j : Fin 256) :
    nodeBlk m c t (ix2 p j) = A0 m c (ix2 (rowOf t p) j) := by
  show V m c main_arg0 (((cfg0.win 0).blk t).view.emb (ix2 p j)) = _
  rw [V_main_arg0]
  show A0 m c _ = A0 m c _
  congr 1; funext a; apply Fin.ext
  obtain ⟨e0, e1, -⟩ := idx_facts t
  match a with
  | ⟨0, _⟩ => show win0_0.index t (0 : Fin 2) * 4096 + 1 * p.val = t.val * 4096 + p.val; omega
  | ⟨1, _⟩ => show win0_0.index t (1 : Fin 2) * 256 + 1 * j.val = j.val; omega

/-- The segment block's row p is the segment word of node 4096·t + p. -/
theorem segBlk_at (c : Dev nD) (t : Fin cfg0.N) (p : Fin 4096) :
    segBlk m c t (ix2 p (0 : Fin 1)) = A2 m c (ix1 (rowOf t p)) := by
  rw [← seg_at m c (rowOf t p)]
  show V m c main_v25 (((cfg0.win 1).blk t).view.emb (ix2 p (0 : Fin 1))) = segV m c _
  show segV m c _ = segV m c _
  congr 1; funext a; apply Fin.ext
  obtain ⟨-, -, e2, e3, -⟩ := idx_facts t
  match a with
  | ⟨0, _⟩ => show win0_1.index t (0 : Fin 2) * 4096 + 1 * p.val = t.val * 4096 + p.val; omega
  | ⟨1, _⟩ => show win0_1.index t (1 : Fin 2) * 1 + 1 * 0 = 0; omega

/-- The table, gate matrix, scale and shift blocks are the whole arrays. -/
theorem tabBlk_eq (c : Dev nD) (t : Fin cfg0.N) : tabBlk m c t = tabV m c := by
  funext y
  show tabV m c (((cfg0.win 2).blk t).view.emb y) = tabV m c y
  congr 1; funext a; apply Fin.ext
  obtain ⟨-, -, -, -, e4, e5, -⟩ := idx_facts t
  match a with
  | ⟨0, _⟩ => show win0_2.index t (0 : Fin 2) * 128 + 1 * (y 0).val = (y 0).val; omega
  | ⟨1, _⟩ => show win0_2.index t (1 : Fin 2) * 512 + 1 * (y 1).val = (y 1).val; omega

theorem wgBlk_eq (c : Dev nD) (t : Fin cfg0.N) : wgBlk m c t = wg1V m c := by
  funext y
  show wg1V m c (((cfg0.win 3).blk t).view.emb y) = wg1V m c y
  congr 1; funext a; apply Fin.ext
  obtain ⟨-, -, -, -, -, -, e6, e7, -⟩ := idx_facts t
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem gammaBlk_eq (c : Dev nD) (t : Fin cfg0.N) : gammaBlk m c t = gammaV m c := by
  funext y
  show gammaV m c (((cfg0.win 4).blk t).view.emb y) = gammaV m c y
  congr 1; funext a; apply Fin.ext
  obtain ⟨-, -, -, -, -, -, -, -, e8, e9, -⟩ := idx_facts t
  match a with
  | ⟨0, _⟩ => show win0_4.index t (0 : Fin 2) * 1 + 1 * (y 0).val = (y 0).val; omega
  | ⟨1, _⟩ => show win0_4.index t (1 : Fin 2) * 256 + 1 * (y 1).val = (y 1).val; omega

theorem betaBlk_eq (c : Dev nD) (t : Fin cfg0.N) : betaBlk m c t = betaV m c := by
  funext y
  show betaV m c (((cfg0.win 5).blk t).view.emb y) = betaV m c y
  congr 1; funext a; apply Fin.ext
  obtain ⟨-, -, -, -, -, -, -, -, -, -, e10, e11, -⟩ := idx_facts t
  match a with
  | ⟨0, _⟩ => show win0_5.index t (0 : Fin 2) * 1 + 1 * (y 0).val = (y 0).val; omega
  | ⟨1, _⟩ => show win0_5.index t (1 : Fin 2) * 256 + 1 * (y 1).val = (y 1).val; omega

/-- What the precondition gives of core c's arguments: the text branch's inputs real, the segment words in [−64, 64). -/
structure Good (c : Dev nD) : Prop where
  r1 : AllReal (A1 m c)
  r3 : AllReal (A3 m c)
  r4 : AllReal (A4 m c)
  r5 : AllReal (A5 m c)
  r6 : AllReal (A6 m c)
  seg : ∀ n : Fin 131072, -64 ≤ (A2 m c (ix1 n)).toInt ∧ (A2 m c (ix1 n)).toInt < 64

/-- The text table of core c's arguments. -/
abbrev tOf (c : Dev nD) : Fin 64 → Fin 256 → EReal := textProj (A1 m c) (A3 m c) (A4 m c) (A5 m c) (A6 m c)

/-- The 0/1 row of a word in range picks the text table's row out of the table's left half, -/
theorem sel_hi (c : Dev nD) (hg : Good m c) (n : Fin 131072) (j : Fin 256) :
    sel (A2 m c (ix1 n)) (tabV m c) (hiRow j) = tOf m c (wrap (A2 m c (ix1 n))) j := by
  rw [sel_of_range _ (hg.seg n).1 (hg.seg n).2 _ _ (fun r hr => table_lo m c hg.r1 hg.r3 hg.r4 hg.r5 hg.r6 r hr _)]
  exact table_hi m c (wrap (A2 m c (ix1 n))) j

/-- and the segment's part of the gate's argument out of its right half. -/
theorem sel_lo (c : Dev nD) (hg : Good m c) (n : Fin 131072) (j : Fin 256) :
    sel (A2 m c (ix1 n)) (tabV m c) (loRow j) = gatePart (tOf m c) (A7 m c) (A8 m c) (wrap (A2 m c (ix1 n))) j := by
  rw [sel_of_range _ (hg.seg n).1 (hg.seg n).2 _ _ (fun r hr => table_lo m c hg.r1 hg.r3 hg.r4 hg.r5 hg.r6 r hr _)]
  exact table_gate m c (wrap (A2 m c (ix1 n))) j

/-- The gated row, over a node row, a gate matrix, a segment word and a table given by what they are entry by entry:
    the gate's argument Σₖ node·Wg₁ + (Σₖ t·Wg₂ + bg) is the reference's (Σₖ node·Wg₁ + Σₖ t·Wg₂) + bg. -/
theorem gated_row_of (c : Dev nD) (hg : Good m c) (n : Fin 131072) (x0 : Fin 256 → EReal) (x3 : Mat 256 256)
    (w : BitVec 32) (tab : Mat 128 512)
    (h0 : ∀ j, x0 j = A0 m c (ix2 n j)) (h3 : ∀ k j, x3 (ix2 k j) = A7 m c (ix2 (hiRow k) j))
    (hw : w = A2 m c (ix1 n)) (ht : tab = tabV m c) :
    (fun j : Fin 256 => x0 j + Ideal.logistic ((∑ k : Fin 256, x0 k * x3 (ix2 k j)) + sel w tab (loRow j)) * sel w tab (hiRow j))
      = enhanced (A0 m c) (tOf m c) (A7 m c) (A8 m c) (wrap (A2 m c (ix1 n))) n := by
  subst hw ht
  funext j
  have hs : (∑ k : Fin 256, x0 k * x3 (ix2 k j)) = ∑ k : Fin 256, A0 m c (ix2 n k) * A7 m c (ix2 (hiRow k) j) :=
    Finset.sum_congr rfl fun k _ => by rw [h0 k, h3 k j]
  rw [sel_hi m c hg, sel_lo m c hg, h0 j, hs]
  unfold enhanced gatePart
  rw [← add_assoc]

/-- The gated row the body forms for row p of block t is the reference's gated row of node 4096·t + p. -/
theorem gated_row (c : Dev nD) (hg : Good m c) (t : Fin cfg0.N) (p : Fin 4096) :
    (fun j : Fin 256 => nodeBlk m c t (ix2 p j)
        + Ideal.logistic ((∑ k : Fin 256, nodeBlk m c t (ix2 p k) * wgBlk m c t (ix2 k j))
            + sel (segBlk m c t (ix2 p (0 : Fin 1))) (tabBlk m c t) (loRow j))
          * sel (segBlk m c t (ix2 p (0 : Fin 1))) (tabBlk m c t) (hiRow j))
      = enhanced (A0 m c) (tOf m c) (A7 m c) (A8 m c) (wrap (A2 m c (ix1 (rowOf t p)))) (rowOf t p) :=
  gated_row_of m c hg (rowOf t p) (fun j => nodeBlk m c t (ix2 p j)) (wgBlk m c t) (segBlk m c t (ix2 p (0 : Fin 1)))
    (tabBlk m c t) (fun j => nodeBlk_at m c t p j)
    (fun k j => (congrFun (wgBlk_eq m c t) (ix2 k j)).trans (wg1_at m c k j))
    (segBlk_at m c t p) (tabBlk_eq m c t)

/-- `fused` of core c's arguments. -/
abbrev fusedOf (c : Dev nD) : Mat 131072 256 :=
  fused (A0 m c) (A1 m c) (A2 m c) (A3 m c) (A4 m c) (A5 m c) (A6 m c) (A7 m c) (A8 m c) (A9 m c) (A10 m c)

theorem fusedOf_at (c : Dev nD) (n : Fin 131072) (q : Fin 256) :
    fusedOf m c (ix2 n q) = normed (enhanced (A0 m c) (tOf m c) (A7 m c) (A8 m c) (wrap (A2 m c (ix1 n))) n) q
      * A9 m c (ix1 q) + A10 m c (ix1 q) := rfl

/-- Where the block's index functions read: the body's value at the entry itself, scale and shift at its column. -/
theorem ix6_0_at (p : Fin 4096) (q : Fin 256) : ix6_0 (ix2 p q) = ix2 p q :=
  funext fun a => Fin.ext (by match a with | ⟨0, _⟩ => rfl | ⟨1, _⟩ => rfl)
theorem ix6_1_at (p : Fin 4096) (q : Fin 256) : ix6_1 (ix2 p q) = ix2 (0 : Fin 1) q :=
  funext fun a => Fin.ext (by match a with | ⟨0, _⟩ => rfl | ⟨1, _⟩ => rfl)
theorem ix6_2_at (p : Fin 4096) (q : Fin 256) : ix6_2 (ix2 p q) = ix2 (0 : Fin 1) q :=
  funext fun a => Fin.ext (by match a with | ⟨0, _⟩ => rfl | ⟨1, _⟩ => rfl)

/-- Entry (p, q) of what the body leaves in the result block, over the blocks it loads: the normalised gated row
    times the scale plus the shift. -/
theorem out_entry (x0 : Vec Ideal S4096x256 .f32) (x1 : Vec Ideal S4096x1 .i32) (x2 : Vec Ideal S128x512 .bf16)
    (x3 : Vec Ideal S256x256 .bf16) (x4 x5 : Vec Ideal S1x256 .f32) (p : Fin 4096) (q : Fin 256) :
    out0_6 x0 x1 x2 x3 x4 x5 (ix2 p q)
      = normed (fun j : Fin 256 => x0 (ix2 p j)
          + Ideal.logistic ((∑ k : Fin 256, x0 (ix2 p k) * x3 (ix2 k j)) + sel (x1 (ix2 p (0 : Fin 1))) x2 (loRow j))
            * sel (x1 (ix2 p (0 : Fin 1))) x2 (hiRow j)) q * x4 (ix2 (0 : Fin 1) q) + x5 (ix2 (0 : Fin 1) q) := by
  unfold out0_6
  rw [canon6_eq]
  simp only [View.ld_unit_zero (S := S4096x256) hz, View.ld_unit_zero (S := S4096x1) hz,
    View.ld_unit_zero (S := S128x512) hz, View.ld_unit_zero (S := S256x256) hz, View.ld_unit_zero (S := S1x256) hz]
  show (k0_pay2 x0 x1 x2 x3 (ix6_0 (ix2 p q))) * (x4 (ix6_1 (ix2 p q))) + (x5 (ix6_2 (ix2 p q))) = _
  rw [ix6_0_at, ix6_1_at, ix6_2_at, body_at]

/-- Entry (p, q) of the result block at point t, as an index of the array. -/
theorem emb6_at (t : Fin cfg0.N) (p : Fin 4096) (q : Fin 256) :
    (((cfg0.win 6).blk t).view.emb (ix2 p q) : S131072x256.Idx) = ix2 (rowOf t p) q := by
  funext a; apply Fin.ext
  obtain ⟨-, -, -, -, -, -, -, -, -, -, -, -, e12, e13⟩ := idx_facts t
  match a with
  | ⟨0, _⟩ => show win0_6.index t (0 : Fin 2) * 4096 + 1 * p.val = t.val * 4096 + p.val; omega
  | ⟨1, _⟩ => show win0_6.index t (1 : Fin 2) * 256 + 1 * q.val = q.val; omega

/-- What point t writes back is block t of `fused`. -/
theorem flushed_eq (c : Dev nD) (hg : Good m c) (t : Fin cfg0.N) :
    (dats m 0 c).flushed 6 t = ((cfg0.win 6).blk t).view.read (Elt Ideal) (fusedOf m c) := by
  rw [flushed6]
  funext y
  obtain ⟨p, q, rfl⟩ : ∃ (p : Fin 4096) (q : Fin 256), y = ix2 p q := ⟨y 0, y 1, eq_ix2 y⟩
  show out0_6 (nodeBlk m c t) (segBlk m c t) (tabBlk m c t) (wgBlk m c t) (gammaBlk m c t) (betaBlk m c t) (ix2 p q)
    = fusedOf m c (((cfg0.win 6).blk t).view.emb (ix2 p q))
  rw [emb6_at, fusedOf_at]
  refine (out_entry _ _ _ _ _ _ p q).trans ?_
  have h1 := gated_row m c hg t p
  have h4 : gammaBlk m c t (ix2 (0 : Fin 1) q) = A9 m c (ix1 q) :=
    (congrFun (gammaBlk_eq m c t) _).trans (gamma_at m c q)
  have h5 : betaBlk m c t (ix2 (0 : Fin 1) q) = A10 m c (ix1 q) :=
    (congrFun (betaBlk_eq m c t) _).trans (beta_at m c q)
  rw [h4, h5]
  exact congrArg (fun e => normed e q * A9 m c (ix1 q) + A10 m c (ix1 q)) h1

/-- An index of the array is in point t's block iff each coordinate is in the block's range. -/
theorem mem_blk6 (t : Fin cfg0.N) (i : S131072x256.Idx) :
    i ∈ ((cfg0.win 6).blk t).view.set ↔ ∀ a : Fin 2, win0_6.index t a * S4096x256.size a ≤ (i a).val
      ∧ (i a).val < win0_6.index t a * S4096x256.size a + S4096x256.size a := by
  show i ∈ ((View.whole main_v28).slice (win0_6.rect t)).set ↔ _
  rw [View.set_slice_whole, Rect.mem_set_unit]
  exact Iff.rfl

/-- Row r of the array lies in block r / 4096: the blocks tile the array. -/
theorem cover6 (i : S131072x256.Idx) :
    ∃ t : Fin cfg0.N, (cfg0.win 6).flush t = true ∧ i ∈ ((cfg0.win 6).blk t).view.set := by
  have hi0 : (i 0).val < 131072 := (i 0).isLt
  have hi1 : (i 1).val < 256 := (i 1).isLt
  have hN : cfg0.N = 32 := N_0
  refine ⟨⟨(i 0).val / 4096, by rw [hN]; omega⟩, flush0_6 _, ?_⟩
  rw [mem_blk6]
  obtain ⟨-, -, -, -, -, -, -, -, -, -, -, -, e12, e13⟩ := idx_facts ⟨(i 0).val / 4096, by rw [hN]; omega⟩
  intro a
  match a with
  | ⟨0, _⟩ =>
    show win0_6.index _ (0 : Fin 2) * 4096 ≤ (i 0).val ∧ (i 0).val < win0_6.index _ (0 : Fin 2) * 4096 + 4096
    rw [e12]; show (i 0).val / 4096 * 4096 ≤ (i 0).val ∧ (i 0).val < (i 0).val / 4096 * 4096 + 4096; omega
  | ⟨1, _⟩ =>
    show win0_6.index _ (1 : Fin 2) * 256 ≤ (i 1).val ∧ (i 1).val < win0_6.index _ (1 : Fin 2) * 256 + 256
    rw [e13]; omega

/-- The result array after the run is `fused` of the arguments. -/
theorem final6 (c : Dev nD) (hg : Good m c) : (dats m 0 c).arrAt 6 cfg0.N = fusedOf m c :=
  (dats m 0 c).arrAt_eq_of_cover 6 (fusedOf m c) (fun t _ => flushed_eq m c hg t) cover6

/-- The kernel's run: it ends with the result array at `fused` of the arguments, the arguments unchanged. -/
theorem kernel_run (hg : ∀ c, Good m c) :
    θ_run defs (onTc (τ := τ) (main (F := Ideal))) ⟨m, fun _ => 0, ρ⟩ fun r => ∀ c : Dev nD,
      r.2.mem ((c : Thread nD τ).loc main_v28) = fusedOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final6 m c (hg c)), (h c).2⟩) (run_blocks m ρ)

end Cert.Fusion

end
-- ==== Proof.RefEnhanced.lean ====
/-
  The reference's gated features (its stage before the row normalisation), read at an entry: the text table computed by
  the two dense layers, its row gathered at the node's wrapped and clamped segment word, the gate's argument as the two
  matrix products plus the bias, and σ expanded as 1 / (1 + exp(−x)).
-/
import proofs.«429601_j48189533061148_3_alg».proof.Proof.Gen.ReferenceIdeal.Read
import proofs.«429601_j48189533061148_3_alg».proof.Proof.Spec

noncomputable section

namespace Cert.Fusion

open Idealize.ShloMosaic Idealize.ShloMosaic.ValueIdx Cert.ReferenceIdeal
open scoped BigOperators

/-- The word 0x3F800000 is the number one. -/
theorem ofBits_one_f32 : Ideal.ofBits .f32 0x3F800000#32 = 1 := by
  simp [Ideal.ofBits, Ideal.ieee, -EReal.coe_mul]; norm_num

/-- The hidden layer at (i, k): the first product's sum over the 768 text columns, plus the bias, against zero. -/
theorem ref_hidden (x1 : Mat 64 768) (x3 : Mat 768 1024) (x4 : Vec1 1024) (i : Fin 64) (k : Fin 1024) :
    Read.val_main_v4 (F := Ideal) x1 x3 x4 (ix2 i k) = hidden x1 x3 x4 i k := by
  have e0l : ∀ l : Fin 768, Read.lidx_main_v0 (ix2 i k) l = ix2 i l := fun l =>
    funext fun a => Fin.ext (by match a with | ⟨0, _⟩ => rfl | ⟨1, _⟩ => rfl)
  have e0r : ∀ l : Fin 768, Read.ridx_main_v0 (ix2 i k) l = ix2 l k := fun l =>
    funext fun a => Fin.ext (by match a with | ⟨0, _⟩ => rfl | ⟨1, _⟩ => rfl)
  have e1 : Read.idx_main_v1 (Read.idx_main_v2 (ix2 i k)) = ix1 k :=
    funext fun a => Fin.ext (by match a with | ⟨0, _⟩ => rfl)
  rw [Read.val_main_v4_apply, Read.val_main_v3_apply, Read.val_main_v0_apply, Read.val_main_v2_apply,
    Read.val_main_v1_apply, Read.val_main_call0_v0_apply, Read.val_main_call0_cst_apply]
  simp only [e0l, e0r, e1, Ideal.maximumf_def, Ideal.addf_def, Ideal.ofBits_def, Ideal.ofBits_zero_f32]
  rfl

/-- The text table at (i, j): the second product's sum over the 1024 hidden columns, plus the bias. -/
theorem ref_table (x1 : Mat 64 768) (x3 : Mat 768 1024) (x4 : Vec1 1024) (x5 : Mat 1024 256) (x6 : Vec1 256)
    (i : Fin 64) (j : Fin 256) :
    Read.val_main_v8 (F := Ideal) x1 x3 x4 x5 x6 (ix2 i j) = textProj x1 x3 x4 x5 x6 i j := by
  have e5l : ∀ k : Fin 1024, Read.lidx_main_v5 (ix2 i j) k = ix2 i k := fun k =>
    funext fun a => Fin.ext (by match a with | ⟨0, _⟩ => rfl | ⟨1, _⟩ => rfl)
  have e5r : ∀ k : Fin 1024, Read.ridx_main_v5 (ix2 i j) k = ix2 k j := fun k =>
    funext fun a => Fin.ext (by match a with | ⟨0, _⟩ => rfl | ⟨1, _⟩ => rfl)
  have e6 : Read.idx_main_v6 (Read.idx_main_v7 (ix2 i j)) = ix1 j :=
    funext fun a => Fin.ext (by match a with | ⟨0, _⟩ => rfl)
  rw [Read.val_main_v8_apply, Read.val_main_v5_apply, Read.val_main_v7_apply, Read.val_main_v6_apply]
  simp only [e5l, e5r, e6, ref_hidden, Ideal.addf_def]
  rfl

/-- Axis 0 of the table is the indexed one: the row read is the start word, signed, clamped into [0, 63]. -/
theorem gather_ax0 (idx : IVec S131072x1 32) (n : Fin 131072) (j : Fin 256) :
    (gather_S64x256_S131072x1_S131072x256_1_0_n_n_0_1_1256.operandIdx (ix2 n j) idx 0).val
      = min (idx (ix2 n (0 : Fin 1))).toInt.toNat 63 := by
  have hb : (0 : Fin S64x256.rank) ∉ gather_S64x256_S131072x1_S131072x256_1_0_n_n_0_1_1256.operandBatchingDims := by decide
  have hk : (0 : Fin S64x256.rank) ∉ gather_S64x256_S131072x1_S131072x256_1_0_n_n_0_1_1256.sKept := by decide
  have hm : (0 : Fin S64x256.rank) ∈ gather_S64x256_S131072x1_S131072x256_1_0_n_n_0_1_1256.startIndexMap := by decide
  simp only [GatherDims.operandIdx, GatherDims.batchCoord_eq_zero _ _ _ hb, GatherDims.offCoord_eq_zero _ _ _ hk,
    Nat.add_zero, GatherDims.start, dif_pos hm]
  show min (idx _).toInt.toNat 63 = min (idx (ix2 n (0 : Fin 1))).toInt.toNat 63
  refine congrArg (fun X => min (idx X).toInt.toNat 63) ?_
  funext b
  apply Fin.ext
  match b with
  | ⟨0, _⟩ => rfl
  | ⟨1, _⟩ => rfl

/-- Axis 1 of the table is carried whole: the column read is the result's column. -/
theorem gather_ax1 (idx : IVec S131072x1 32) (n : Fin 131072) (j : Fin 256) :
    (gather_S64x256_S131072x1_S131072x256_1_0_n_n_0_1_1256.operandIdx (ix2 n j) idx 1).val = j.val := by
  have hb : (1 : Fin S64x256.rank) ∉ gather_S64x256_S131072x1_S131072x256_1_0_n_n_0_1_1256.operandBatchingDims := by decide
  have hk : (1 : Fin S64x256.rank) ∈ gather_S64x256_S131072x1_S131072x256_1_0_n_n_0_1_1256.sKept := by decide
  have hm : (1 : Fin S64x256.rank) ∉ gather_S64x256_S131072x1_S131072x256_1_0_n_n_0_1_1256.startIndexMap := by decide
  simp only [GatherDims.operandIdx, GatherDims.batchCoord_eq_zero _ _ _ hb, GatherDims.start, dif_neg hm,
    GatherDims.offCoord, dif_pos hk, Nat.zero_add]
  rfl

/-- The row gather read at an entry: result row n, column j reads the table at the row its start word names — read as a
    signed integer and clamped into [0, 63] — and at the same column j. -/
theorem gather_row {α : Type} (x : S64x256.Idx → α) (idx : IVec S131072x1 32) (n : Fin 131072) (j : Fin 256)
    (r : Fin 64) (hr : r.val = min (idx (ix2 n (0 : Fin 1))).toInt.toNat 63) :
    Host.gather gather_S64x256_S131072x1_S131072x256_1_0_n_n_0_1_1256 x idx (ix2 n j) = x (ix2 r j) := by
  unfold Host.gather
  congr 1
  funext a
  apply Fin.ext
  match a with
  | ⟨0, _⟩ => exact (gather_ax0 idx n j).trans hr.symm
  | ⟨1, _⟩ => exact gather_ax1 idx n j

/-- The wrapped segment word as the reference computes it, at node n. -/
theorem ref_start (x2 : Seg) (n : Fin 131072) :
    Read.val_main_v14 (F := Ideal) x2 (ix2 n (0 : Fin 1))
      = Scalar.select (IntOp.cmpi .slt (x2 (ix1 n)) 0#32) (IntOp.addi (x2 (ix1 n)) 64#32) (x2 (ix1 n)) := by
  have e14 : Read.idx_main_v14 (ix2 n (0 : Fin 1)) = ix1 n :=
    funext fun a => Fin.ext (by match a with | ⟨0, _⟩ => rfl)
  rw [Read.val_main_v14_apply, Read.val_main_v13_apply, Read.val_main_v10_apply, Read.val_main_v12_apply,
    Read.val_main_v9_apply, Read.val_main_v11_apply, Read.val_main_c_apply, Read.val_main_c_0_apply, e14]

/-- The gathered row at (n, j): the text table's row at the node's wrapped and clamped word. -/
theorem ref_gathered (x1 : Mat 64 768) (x2 : Seg) (x3 : Mat 768 1024) (x4 : Vec1 1024) (x5 : Mat 1024 256)
    (x6 : Vec1 256) (n : Fin 131072) (j : Fin 256) :
    Read.val_main_v15 (F := Ideal) x1 x2 x3 x4 x5 x6 (ix2 n j) = textProj x1 x3 x4 x5 x6 (wrap (x2 (ix1 n))) j := by
  unfold Read.val_main_v15
  rw [gather_row _ _ n j (wrap (x2 (ix1 n))) (by rw [ref_start]; rfl), ref_table]

/-- The reference's stage `node + gate · gathered` at (n, j) is `enhanced` at the node's table row. -/
theorem ref_enhanced (x0 : Mat 131072 256) (x1 : Mat 64 768) (x2 : Seg) (x3 : Mat 768 1024) (x4 : Vec1 1024)
    (x5 : Mat 1024 256) (x6 : Vec1 256) (x7 : Mat 512 256) (x8 : Vec1 256) (n : Fin 131072) (j : Fin 256) :
    Cert.ReferenceIdeal.Read.val_main_v31 (F := Ideal) x0 x1 x2 x3 x4 x5 x6 x7 x8 (ix2 n j)
      = enhanced x0 (textProj x1 x3 x4 x5 x6) x7 x8 (wrap (x2 (ix1 n))) n j := by
  have e17l : ∀ k : Fin 256, Read.lidx_main_v17 (ix2 n j) k = ix2 n k := fun k =>
    funext fun a => Fin.ext (by match a with | ⟨0, _⟩ => rfl | ⟨1, _⟩ => rfl)
  have e17r : ∀ k : Fin 256, Read.idx_main_v16 (Read.ridx_main_v17 (ix2 n j) k) = ix2 (hiRow k) j := fun k =>
    funext fun a => Fin.ext (by match a with | ⟨0, _⟩ => rfl | ⟨1, _⟩ => rfl)
  have e19l : ∀ k : Fin 256, Read.lidx_main_v19 (ix2 n j) k = ix2 n k := fun k =>
    funext fun a => Fin.ext (by match a with | ⟨0, _⟩ => rfl | ⟨1, _⟩ => rfl)
  have e19r : ∀ k : Fin 256, Read.idx_main_v18 (Read.ridx_main_v19 (ix2 n j) k) = ix2 (loRow k) j := fun k =>
    funext fun a => Fin.ext (by match a with | ⟨0, _⟩ => rfl | ⟨1, _⟩ => rfl)
  have e21 : Read.idx_main_v21 (Read.idx_main_v22 (ix2 n j)) = ix1 j :=
    funext fun a => Fin.ext (by match a with | ⟨0, _⟩ => rfl)
  rw [Read.val_main_v31_apply, Read.val_main_v30_apply, Read.val_main_v29_apply, Read.val_main_v28_apply,
    Read.val_main_cst_1_apply, Read.val_main_v27_apply, Read.val_main_v26_apply, Read.val_main_cst_apply,
    Read.val_main_v25_apply, Read.val_main_v24_apply, Read.val_main_v23_apply, Read.val_main_v20_apply,
    Read.val_main_v17_apply, Read.val_main_v19_apply, Read.val_main_v22_apply, Read.val_main_v21_apply]
  simp only [Read.val_main_v16_apply, Read.val_main_v18_apply, e17l, e17r, e19l, e19r, e21, ref_gathered,
    Ideal.addf_def, Ideal.mulf_def, Ideal.hostDivf_def, Ideal.hostUnary_exp_def, Ideal.hostNegf_def, Ideal.negf_def,
    Ideal.ofBits_def, ofBits_one_f32]
  rfl

end Cert.Fusion

end
-- ==== Proof.RefValue.lean ====
/-
  The reference's last stage, read index by index, is the function `fused`.

  The reference normalises each row of its gated features: the row's sum (from the zero word) divided by the printed
  256 is the mean; the deviation from the mean is squared and averaged the same way; the printed ε is added, the
  reciprocal square root taken, and the deviation (computed a second time by the same subtraction) is multiplied by
  it, then by γ and shifted by β, both read at the column. Each of these is the corresponding piece of `normed` at
  the row `k ↦ gated features at (n, k)`, and that row is `enhanced` at the node's table row.
-/
import proofs.«429601_j48189533061148_3_alg».proof.Proof.Gen.ReferenceIdeal.Read
import proofs.«429601_j48189533061148_3_alg».proof.Proof.Spec
import proofs.«429601_j48189533061148_3_alg».proof.Proof.RefEnhanced

noncomputable section

namespace Cert.Fusion

open Idealize.ShloMosaic Idealize.ShloMosaic.ValueIdx Cert.ReferenceIdeal
open scoped BigOperators

section Rows

variable (x0 : Mat 131072 256) (x1 : Mat 64 768) (x2 : Seg) (x3 : Mat 768 1024) (x4 : Vec1 1024)
    (x5 : Mat 1024 256) (x6 : Vec1 256) (x7 : Mat 512 256) (x8 : Vec1 256)

/-- Row n of the reference's gated features. -/
def refRow (n : Fin 131072) (k : Fin 256) : EReal :=
  Read.val_main_v31 (F := Ideal) x0 x1 x2 x3 x4 x5 x6 x7 x8 (ix2 n k)

/-- The reference's mean column at row n: the row's sum from the zero word, divided by the printed 256. -/
theorem ref_mean (n : Fin 131072) :
    Read.val_main_v35 (F := Ideal) x0 x1 x2 x3 x4 x5 x6 x7 x8 (ix2 n (0 : Fin 1))
      = rowMean (refRow x0 x1 x2 x3 x4 x5 x6 x7 x8 n) := by
  have hk : ∀ k : Fin 256, Read.idx_main_v32 (Read.idx_main_v33 (ix2 n (0 : Fin 1))) k = ix2 n k := fun k =>
    funext fun a => Fin.ext (by match a with | ⟨0, _⟩ => rfl | ⟨1, _⟩ => rfl)
  rw [Read.val_main_v35_apply, Read.val_main_v33_apply, Read.val_main_v32_apply, Read.val_main_v34_apply,
    Read.val_main_cst_3_apply, Read.val_main_cst_2_apply]
  simp only [hk, Ideal.hostDivf_def, Ideal.ofBits_def, Ideal.ofBits_zero_f32, zero_add]
  rfl

/-- The reference's deviation from the mean at (n, j). -/
theorem ref_dev (n : Fin 131072) (j : Fin 256) :
    Read.val_main_v37 (F := Ideal) x0 x1 x2 x3 x4 x5 x6 x7 x8 (ix2 n j)
      = refRow x0 x1 x2 x3 x4 x5 x6 x7 x8 n j - rowMean (refRow x0 x1 x2 x3 x4 x5 x6 x7 x8 n) := by
  have h36 : Read.idx_main_v36 (ix2 n j) = ix2 n (0 : Fin 1) :=
    funext fun a => Fin.ext (by match a with | ⟨0, _⟩ => rfl | ⟨1, _⟩ => rfl)
  rw [Read.val_main_v37_apply, Read.val_main_v36_apply, h36, ref_mean, Ideal.subf_def]
  rfl

/-- The same deviation, as the reference computes it a second time. -/
theorem ref_dev' (n : Fin 131072) (j : Fin 256) :
    Read.val_main_v44 (F := Ideal) x0 x1 x2 x3 x4 x5 x6 x7 x8 (ix2 n j)
      = refRow x0 x1 x2 x3 x4 x5 x6 x7 x8 n j - rowMean (refRow x0 x1 x2 x3 x4 x5 x6 x7 x8 n) := by
  have h43 : Read.idx_main_v43 (ix2 n j) = ix2 n (0 : Fin 1) :=
    funext fun a => Fin.ext (by match a with | ⟨0, _⟩ => rfl | ⟨1, _⟩ => rfl)
  rw [Read.val_main_v44_apply, Read.val_main_v43_apply, h43, ref_mean, Ideal.subf_def]
  rfl

/-- The reference's variance column at row n: the mean of the squared deviations. -/
theorem ref_var (n : Fin 131072) :
    Read.val_main_v42 (F := Ideal) x0 x1 x2 x3 x4 x5 x6 x7 x8 (ix2 n (0 : Fin 1))
      = rowMean (fun k => (refRow x0 x1 x2 x3 x4 x5 x6 x7 x8 n k - rowMean (refRow x0 x1 x2 x3 x4 x5 x6 x7 x8 n))
          * (refRow x0 x1 x2 x3 x4 x5 x6 x7 x8 n k - rowMean (refRow x0 x1 x2 x3 x4 x5 x6 x7 x8 n))) := by
  have hk : ∀ k : Fin 256, Read.idx_main_v39 (Read.idx_main_v40 (ix2 n (0 : Fin 1))) k = ix2 n k := fun k =>
    funext fun a => Fin.ext (by match a with | ⟨0, _⟩ => rfl | ⟨1, _⟩ => rfl)
  rw [Read.val_main_v42_apply, Read.val_main_v40_apply, Read.val_main_v39_apply, Read.val_main_v41_apply,
    Read.val_main_cst_5_apply, Read.val_main_cst_4_apply]
  simp only [hk, Read.val_main_v38_apply, ref_dev, Ideal.mulf_def, Ideal.hostDivf_def, Ideal.ofBits_def,
    Ideal.ofBits_zero_f32, zero_add]
  rfl

/-- The reference's gated row is `enhanced` at the node's table row. -/
theorem refRow_eq (n : Fin 131072) :
    refRow x0 x1 x2 x3 x4 x5 x6 x7 x8 n = enhanced x0 (textProj x1 x3 x4 x5 x6) x7 x8 (wrap (x2 (ix1 n))) n :=
  funext fun k => ref_enhanced x0 x1 x2 x3 x4 x5 x6 x7 x8 n k

end Rows

/-- The reference's result, as a function of its eleven arguments, is `fused` of them. -/
theorem ref_value (x0 : Mat 131072 256) (x1 : Mat 64 768) (x2 : Seg) (x3 : Mat 768 1024) (x4 : Vec1 1024)
    (x5 : Mat 1024 256) (x6 : Vec1 256) (x7 : Mat 512 256) (x8 x9 x10 : Vec1 256) :
    Cert.ReferenceIdeal.Read.val_main_v55 (F := Ideal) x0 x1 x2 x3 x4 x5 x6 x7 x8 x9 x10
      = fused x0 x1 x2 x3 x4 x5 x6 x7 x8 x9 x10 := by
  funext i
  obtain ⟨n, j, rfl⟩ : ∃ (n : Fin 131072) (j : Fin 256), i = ix2 n j := ⟨i 0, i 1, eq_ix2 i⟩
  have h48 : Read.idx_main_v48 (ix2 n j) = ix2 n (0 : Fin 1) :=
    funext fun a => Fin.ext (by match a with | ⟨0, _⟩ => rfl | ⟨1, _⟩ => rfl)
  have h51 : Read.idx_main_v50 (Read.idx_main_v51 (ix2 n j)) = ix1 j :=
    funext fun a => Fin.ext (by match a with | ⟨0, _⟩ => rfl)
  have h54 : Read.idx_main_v53 (Read.idx_main_v54 (ix2 n j)) = ix1 j :=
    funext fun a => Fin.ext (by match a with | ⟨0, _⟩ => rfl)
  rw [Read.val_main_v55_apply, Read.val_main_v52_apply, Read.val_main_v49_apply, ref_dev', Read.val_main_v48_apply,
    h48, Read.val_main_v47_apply, Read.val_main_v46_apply, ref_var, Read.val_main_v45_apply,
    Read.val_main_cst_6_apply, Read.val_main_v51_apply, Read.val_main_v50_apply, h51, Read.val_main_v54_apply,
    Read.val_main_v53_apply, h54, refRow_eq]
  simp only [Ideal.addf_def, Ideal.mulf_def, Ideal.hostUnary_rsqrt_def, Ideal.ofBits_def]
  rfl

end Cert.Fusion

end
-- ==== Proof.PreFacts.lean ====
/-
  What the precondition says of the arguments: the text branch's inputs are real numbers, and every segment word
  lies in [−64, 64).
-/
import proofs.«429601_j48189533061148_3_alg».proof.Pre_finite_inputs
import proofs.«429601_j48189533061148_3_alg».proof.Proof.Spec
import Idealize.ShloMosaic.Lib.ReduceAll

noncomputable section

namespace Cert.Fusion

open Idealize.ShloMosaic Idealize.ShloMosaic.ValueIdx

/-- The scalar shape has one index. -/
private instance scalarIdxSubsingleton : Subsingleton (⟨0, ![]⟩ : Shape).Idx := ⟨fun a b => funext fun d => d.elim0⟩

/-- An extended real whose absolute value max(x, −x) lies strictly below +∞ is a real number:
    at −∞ and at +∞ the absolute value is +∞ itself. -/
private theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One "all |x| < +∞" of the precondition, read back: every entry of x is a real number. -/
private theorem allReal_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (h0 : 0 < (⟨0, ![]⟩ : Shape).numel)
    (init : IVec (⟨0, ![]⟩ : Shape) 1)
    (e : Host.reduce IntOp.andi
          (cmpf .olt (Host.absf x) (broadcastInDim s ![] hb (constant (F := Ideal) (⟨0, ![]⟩ : Shape) .f32 0x7F800000#32)))
          init hr h0 ix0 = 1#1) :
    AllReal x := by
  intro i
  have hi := Host.reduce_andi_all _ init hr h0 ix0 e i
  exact real_of_abs_lt_top (x i) hi

/-- From the precondition's value being all ones. -/
theorem pre_facts [Cert.Pre_finite_inputs.Facts] (a0 : Mat 131072 256) (a1 : Mat 64 768) (a2 : Seg) (a3 : Mat 768 1024)
    (a4 : Vec1 1024) (a5 : Mat 1024 256) (a6 : Vec1 256) (a7 : Mat 512 256) (a8 a9 a10 : Vec1 256)
    (h : Cert.Pre_finite_inputs.fn (F := Ideal) a0 a1 a2 a3 a4 a5 a6 a7 a8 a9 a10 = fun _ => 1#1) :
    AllReal a1 ∧ AllReal a3 ∧ AllReal a4 ∧ AllReal a5 ∧ AllReal a6
      ∧ ∀ n : Fin 131072, -64 ≤ (a2 (ix1 n)).toInt ∧ (a2 (ix1 n)).toInt < 64 := by
  -- The value at the one scalar index is a conjunction of twelve "all" reductions; each that is 1 gives its
  -- compare's truth at every index: |x| < +∞ for the five float inputs kept, −64 ≤ word and word < 64 for the segments.
  have h' := congrFun h ix0
  dsimp only [Cert.Pre_finite_inputs.fn, Cert.Pre_finite_inputs.fn_part1, Cert.Pre_finite_inputs.fn_part2,
    Cert.Pre_finite_inputs.fn_part3, Idealize.ShloMosaic.andi] at h'
  simp only [IntOp.andi_eq_one] at h'
  obtain ⟨⟨⟨⟨⟨⟨⟨⟨⟨⟨⟨_, h1⟩, h3⟩, h4⟩, h5⟩, h6⟩, _⟩, _⟩, _⟩, _⟩, hge⟩, hlt⟩ := h'
  refine ⟨allReal_of_all a1 _ _ _ _ h1, allReal_of_all a3 _ _ _ _ h3, allReal_of_all a4 _ _ _ _ h4,
    allReal_of_all a5 _ _ _ _ h5, allReal_of_all a6 _ _ _ _ h6, fun n => ⟨?_, ?_⟩⟩
  · have hn := Host.reduce_andi_all _ _ _ _ ix0 hge (ix1 n)
    have hc : (4294967232#32 : BitVec 32).toInt ≤ (a2 (ix1 n)).toInt := IntOp.cmpi_sge.mp hn
    have hk : (4294967232#32 : BitVec 32).toInt = -64 := by decide
    omega
  · have hn := Host.reduce_andi_all _ _ _ _ ix0 hlt (ix1 n)
    have hc : (a2 (ix1 n)).toInt < (64#32 : BitVec 32).toInt := IntOp.cmpi_slt.mp hn
    have hk : (64#32 : BitVec 32).toInt = 64 := by decide
    omega

end Cert.Fusion

end
-- ==== Proof.lean ====
/-
  The certificate of the gated text–node fusion with row normalisation.

  Both programs compute, for each of 131072 nodes, the row
      ((e − μ) · (v + ε)^(−1/2)) · γ + β,    e = node + σ(node · Wg₁ + t[s] · Wg₂ + bg) · t[s],
  where t = relu(text · W1 + b1) · W2 + b2 is a table with one row per segment and s is the node's segment index
  (Proof/Spec.lean, `fused`). The reference gathers row s of t, reading the index as jnp does (a negative index has 64
  added, the result is clamped into [0, 63]). The kernel multiplies a 0/1 row — ones at columns s and s + 64 — with a
  128-row table whose upper half is [t | t · Wg₂ + bg] and whose lower half is [t − t | 0]. Over the extended reals
  the two agree when the text branch's inputs are real numbers (so that t − t = 0) and the segment words lie in
  [−64, 64) (outside it the reference's index is out of range and is clamped, while the kernel's 0/1 row selects a
  zero row or nothing): that is the precondition. The frames are the generated ones; the idealization rewrote no
  operation, so `preserves` states nothing.
-/
import proofs.«429601_j48189533061148_3_alg».proof.Defs
import proofs.«429601_j48189533061148_3_alg».proof.Proof.Gen.Kernel
import proofs.«429601_j48189533061148_3_alg».proof.Proof.Gen.Kernel.Skeleton
import proofs.«429601_j48189533061148_3_alg».proof.Proof.Gen.Kernel.Launch
import proofs.«429601_j48189533061148_3_alg».proof.Proof.Gen.Kernel.Points
import proofs.«429601_j48189533061148_3_alg».proof.Proof.Gen.Kernel.Frame
import proofs.«429601_j48189533061148_3_alg».proof.Proof.Gen.KernelIdeal
import proofs.«429601_j48189533061148_3_alg».proof.Proof.Gen.KernelIdeal.Skeleton
import proofs.«429601_j48189533061148_3_alg».proof.Proof.Gen.KernelIdeal.Launch
import proofs.«429601_j48189533061148_3_alg».proof.Proof.Gen.KernelIdeal.Points
import proofs.«429601_j48189533061148_3_alg».proof.Proof.Gen.KernelIdeal.Frame
import proofs.«429601_j48189533061148_3_alg».proof.Proof.Gen.ReferenceIdeal
import proofs.«429601_j48189533061148_3_alg».proof.Proof.Gen.Pre_finite_inputs
import proofs.«429601_j48189533061148_3_alg».proof.Proof.Gen.KernelIdeal.Value
import proofs.«429601_j48189533061148_3_alg».proof.Proof.Gen.ReferenceIdeal.Run
import proofs.«429601_j48189533061148_3_alg».proof.Proof.Gen.ReferenceIdeal.Read
import proofs.«429601_j48189533061148_3_alg».proof.Proof.KernelValue
import proofs.«429601_j48189533061148_3_alg».proof.Proof.RefValue
import proofs.«429601_j48189533061148_3_alg».proof.Proof.PreFacts
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The precondition, read on core c: the text branch's inputs are real and the segment words lie in [−64, 64). -/
theorem good_of_pre (m : (ℓ : Loc Cert.KernelIdeal.nD Cert.KernelIdeal.τ Cert.KernelIdeal.sig) → Buf (Elt Ideal) ℓ)
    (h : Cert.Pre_KernelIdeal m) (c : Dev Cert.KernelIdeal.nD) : Cert.Fusion.Good m c := by
  obtain ⟨r1, r3, r4, r5, r6, hs⟩ := Cert.Fusion.pre_facts (Cert.Fusion.A0 m c) (Cert.Fusion.A1 m c) (Cert.Fusion.A2 m c)
    (Cert.Fusion.A3 m c) (Cert.Fusion.A4 m c) (Cert.Fusion.A5 m c) (Cert.Fusion.A6 m c) (Cert.Fusion.A7 m c)
    (Cert.Fusion.A8 m c) (Cert.Fusion.A9 m c) (Cert.Fusion.A10 m c) (h c)
  exact ⟨r1, r3, r4, r5, r6, hs⟩

/-- Both programs end with the result array at `fused` of the (agreeing) arguments. -/
theorem algebraic : Cert.algebraic_KernelIdeal_ReferenceIdeal := by
  intro m ρ m' ρ' hpre hagree
  refine ⟨fun c => Cert.Fusion.fusedOf m c, Cert.Fusion.kernel_run m ρ (good_of_pre m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, Cert.Fusion.ref_value]
  obtain ⟨e0, e1, e2, e3, e4, e5, e6, e7, e8, e9, e10⟩ := hagree c
  rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
